-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x1024 : Shape := ⟨2, ![1024, 1024]⟩
abbrev S1024 : Shape := ⟨1, ![1024]⟩
abbrev S5x4x1024 : Shape := ⟨3, ![5, 4, 1024]⟩
abbrev S5x1024x4 : Shape := ⟨3, ![5, 1024, 4]⟩
abbrev S16 : Shape := ⟨1, ![16]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S5x4x1024 : S_.BroadcastsInDim S5x4x1024 (![] : Fin 0 → Fin S5x4x1024.rank)
  reducesTo_S5x4x1024_S_d0_1_2 : S5x4x1024.ReducesTo [0, 1, 2] S_
  bcast_S_S5x1024x4 : S_.BroadcastsInDim S5x1024x4 (![] : Fin 0 → Fin S5x1024x4.rank)
  reducesTo_S5x1024x4_S_d0_1_2 : S5x1024x4.ReducesTo [0, 1, 2] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S1024 .f32) (main_arg8 : IVec S16 32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_c_14 : IVec S_ 32 := constantI S_ 32 0#32
  let main_v39 : IVec S16 32 := broadcastInDim S16 ![] bcast_S_S16 main_c_14
  let main_v40 : IVec S16 1 := cmpi .sge main_arg8 main_v39
  let main_c_15 : IVec S_ 1 := constantI S_ 1 1#1
  let main_v41 : IVec S_ 1 := (fun x v => Host.reduce IntOp.andi x v reducesTo_S16_S_d0 h_S_) main_v40 main_c_15
  let main_v42 : IVec S_ 1 := andi main_v38 main_v41
  let main_c_16 : IVec S_ 32 := constantI S_ 32 5#32
  let main_v43 : IVec S16 32 := broadcastInDim S16 ![] bcast_S_S16 main_c_16
  let main_v44 : IVec S16 1 := cmpi .slt main_arg8 main_v43
  let main_c_17 : IVec S_ 1 := constantI S_ 1 1#1
  let main_v45 : IVec S_ 1 := (fun x v => Host.reduce IntOp.andi x v reducesTo_S16_S_d0 h_S_) main_v44 main_c_17
  let main_v46 : IVec S_ 1 := andi main_v42 main_v45
  main_v46

def fn_part1 {F : FTy → Type} [FloatOps F] (main_arg4 : FVec F S5x4x1024 .f32) (main_arg5 : FVec F S5x1024x4 .f32) (main_arg6 : FVec F S1024 .f32) (main_arg7 : FVec F S1024 .f32) (main_arg8 : IVec S16 32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S5x4x1024 .f32 := Host.absf main_arg4
  let main_cst_6 : FVec F S_ .f32 := constant S_ .f32 0x7F800000#32
  let main_v20 : FVec F S5x4x1024 .f32 := broadcastInDim S5x4x1024 ![] bcast_S_S5x4x1024 main_cst_6
  let main_v21 : IVec S5x4x1024 1 := cmpf .olt main_v19 main_v20
  let main_c_7 : IVec S_ 1 := constantI S_ 1 1#1
  let main_v22 : IVec S_ 1 := (fun x v => Host.reduce IntOp.andi x v reducesTo_S5x4x1024_S_d0_1_2 h_S_) main_v21 main_c_7
  let main_v23 : IVec S_ 1 := andi main_v18 main_v22
  let main_v24 : FVec F S5x1024x4 .f32 := Host.absf main_arg5
  let main_cst_8 : FVec F S_ .f32 := constant S_ .f32 0x7F800000#32
  let main_v25 : FVec F S5x1024x4 .f32 := broadcastInDim S5x1024x4 ![] bcast_S_S5x1024x4 main_cst_8
  let main_v26 : IVec S5x1024x4 1 := cmpf .olt main_v24 main_v25
  let main_c_9 : IVec S_ 1 := constantI S_ 1 1#1
  let main_v27 : IVec S_ 1 := (fun x v => Host.reduce IntOp.andi x v reducesTo_S5x1024x4_S_d0_1_2 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S16x2048x1024 .f32) (main_arg1 : FVec F S16x2048x1024 .f32) (main_arg2 : FVec F S1024x1024 .f32) (main_arg3 : FVec F S1024 .f32) (main_arg4 : FVec F S5x4x1024 .f32) (main_arg5 : FVec F S5x1024x4 .f32) (main_arg6 : FVec F S1024 .f32) (main_arg7 : FVec F S1024 .f32) (main_arg8 : IVec S16 32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_v13 main_v16
-- ==== Kernel.lean ====
abbrev S16x2048x1024 : Shape := ⟨3, ![16, 2048, 1024]⟩
abbrev S1024x1024 : Shape := ⟨2, ![1024, 1024]⟩
abbrev S1024 : Shape := ⟨1, ![1024]⟩
abbrev S5x4x1024 : Shape := ⟨3, ![5, 4, 1024]⟩
abbrev S5x1024x4 : Shape := ⟨3, ![5, 1024, 4]⟩
abbrev S16 : Shape := ⟨1, ![16]⟩
abbrev S_ : Shape := ⟨0, ![]⟩
abbrev S5x1024x1024 : Shape := ⟨3, ![5, 1024, 1024]⟩
abbrev S1x1024x1024 : Shape := ⟨3, ![1, 1024, 1024]⟩
abbrev S1x1024 : Shape := ⟨2, ![1, 1024]⟩
abbrev S1x512x1024 : Shape := ⟨3, ![1, 512, 1024]⟩
abbrev S1 : Shape := ⟨1, ![1]⟩
abbrev S512x1024 : Shape := ⟨2, ![512, 1024]⟩
abbrev S512 : Shape := ⟨1, ![512]⟩
abbrev S512x1 : Shape := ⟨2, ![512, 1]⟩

abbrev nBuf : Space → Nat
  | .hbm => 32
  | .vmem => 12
  | .smem => 1
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S5x4x1024, .f32⟩
  | .hbm, ⟨5, _⟩ => ⟨S5x1024x4, .f32⟩
  | .hbm, ⟨6, _⟩ => ⟨S1024, .f32⟩
  | .hbm, ⟨7, _⟩ => ⟨S1024, .f32⟩
  | .hbm, ⟨8, _⟩ => ⟨S16, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S16, .i32⟩
  | .hbm, ⟨13, _⟩ => ⟨S16, .i32⟩
  | .hbm, ⟨14, _⟩ => ⟨S_, .i32⟩
  | .hbm, ⟨15, _⟩ => ⟨S16, .i32⟩
  | .hbm, ⟨16, _⟩ => ⟨S1024x1024, .f32⟩
  | .hbm, ⟨17, _⟩ => ⟨S5x1024x4, .f32⟩
  | .hbm, ⟨18, _⟩ => ⟨S5x4x1024, .f32⟩
  | .hbm, ⟨19, _⟩ => ⟨S5x1024x1024, .f32⟩
  | .hbm, ⟨20, _⟩ => ⟨S1x1024x1024, .f32⟩
  | .hbm, ⟨21, _⟩ => ⟨S_, .f32⟩
  | .hbm, ⟨22, _⟩ => ⟨S5x1024x1024, .f32⟩
  | .hbm, ⟨23, _⟩ => ⟨S5x1024x1024, .f32⟩
  | .hbm, ⟨24, _⟩ => ⟨S5x1024x1024, .f32⟩
  | .hbm, ⟨25, _⟩ => ⟨S5x1024x1024, .f32⟩
  | .hbm, ⟨26, _⟩ => ⟨S1024x1024, .bf16⟩
  | .hbm, ⟨27, _⟩ => ⟨S5x1024x1024, .bf16⟩
  | .hbm, ⟨28, _⟩ => ⟨S1x1024, .f32⟩
  | .hbm, ⟨29, _⟩ => ⟨S1x1024, .f32⟩
  | .hbm, ⟨30, _⟩ => ⟨S1x1024, .f32⟩
  | .hbm, ⟨31, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x512x1024, .f32⟩
  | .local _ .vmem, ⟨11, _⟩ => ⟨S1x512x1024, .f32⟩
  | .local _ .smem, ⟨0, _⟩ => ⟨S16, .i32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S16 : S_.BroadcastsInDim S16 (![] : Fin 0 → Fin S16.rank)
  transposes_S1024x1024_S1024x1024_1_0 : S1024x1024.Transposes [1, 0] S1024x1024
  transposes_S5x4x1024_S5x1024x4_0_2_1 : S5x4x1024.Transposes [0, 2, 1] S5x1024x4
  transposes_S5x1024x4_S5x4x1024_0_2_1 : S5x1024x4.Transposes [0, 2, 1] S5x4x1024
  bcast_S1024x1024_S1x1024x1024_1_2 : S1024x1024.BroadcastsInDim S1x1024x1024 (![1, 2] : Fin 2 → Fin S1x1024x1024.rank)
  bcast_S_S5x1024x1024 : S_.BroadcastsInDim S5x1024x1024 (![] : Fin 0 → Fin S5x1024x1024.rank)
  bcast_S1x1024x1024_S5x1024x1024_0_1_2 : S1x1024x1024.BroadcastsInDim S5x1024x1024 (![0, 1, 2] : Fin 3 → Fin S5x1024x1024.rank)
  bitsLt_bf16_f32 : FTy.bits .bf16 < FTy.bits .f32
  shapeCasts_S1024_S1x1024 : S1024.ShapeCasts S1x1024
  numel1_S1 : S1.numel = 1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  reduces_S512x1024_S512 : S512x1024.Reduces [1] S512
  shapeCasts_S512_S512x1 : S512.ShapeCasts S512x1
  broadcasts_S512x1_S512x1024 : S512x1.Broadcasts S512x1024
  shapeCasts_S512x1024_S1x512x1024 : S512x1024.ShapeCasts S1x512x1024
  dot_S5x1024x4_S5x4x1024_S5x1024x1024_2_1_1_2_0_0_wf : DotDims.WF S5x1024x4 S5x4x1024 S5x1024x1024 [2] [1] [1] [2] [0] [0]
  dot_S512x1024_S1024x1024_S512x1024_1_0_0_1_n_n_wf : DotDims.WF S512x1024 S1024x1024 S512x1024 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S16x2048x1024.size a
  hwx0_0 : ∀ i : grid0.Coords, EltTy.bits .f32 = 32 ∨ (Rect.block (s := S16x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S16x2048x1024.size a
  hwx0_1 : ∀ i : grid0.Coords, EltTy.bits .f32 = 32 ∨ (Rect.block (s := S16x2048x1024) S1x512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1024.size a ≤ S16x2048x1024.size a
  hwx0_7 : ∀ i : grid0.Coords, EltTy.bits .f32 = 32 ∨ (Rect.block (s := S16x2048x1024) S1x512x1024.size (cc0_transform_7 i) (hinb0_7 i)).WholeWords (EltTy.packing .f32)

variable [Facts₀]

def dot_S5x1024x4_S5x4x1024_S5x1024x1024_2_1_1_2_0_0 : DotDims S5x1024x4 S5x4x1024 S5x1024x1024 where
  lhsContracting := [2]
  rhsContracting := [1]
  lhsNonContracting := [1]
  rhsNonContracting := [2]
  lhsBatch := [0]
  rhsBatch := [0]
  wf := dot_S5x1024x4_S5x4x1024_S5x1024x1024_2_1_1_2_0_0_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev spec0_0 : Pipeline.WinSpec sig grid0.rank :=
  Pipeline.WinSpec.ofSpec (Memref.whole main_arg0) S1x512x1024.size reads0_0 false false 2 stage0_0 sem0_0 nbuf0_0 hstage0_0

abbrev spec0_1 : Pipeline.WinSpec sig grid0.rank :=
  Pipeline.WinSpec.ofSpec (Memref.whole main_arg1) S1x512x1024.size reads0_1 false false 2 stage0_1 sem0_1 nbuf0_1 hstage0_1

abbrev spec0_2 : Pipeline.WinSpec sig grid0.rank :=
  Pipeline.WinSpec.ofSpec (Memref.whole main_v10) S1024x1024.size reads0_2 false true 1 stage0_2 sem0_2 nbuf0_2 hstage0_2

abbrev spec0_3 : Pipeline.WinSpec sig grid0.rank :=
  Pipeline.WinSpec.ofSpec (Memref.whole main_v11) S1x1024x1024.size reads0_3 false false 2 stage0_3 sem0_3 nbuf0_3 hstage0_3

abbrev spec0_4 : Pipeline.WinSpec sig grid0.rank :=
  Pipeline.WinSpec.ofSpec (Memref.whole main_v12) S1x1024.size reads0_4 false true 1 stage0_4 sem0_4 nbuf0_4 hstage0_4

abbrev spec0_5 : Pipeline.WinSpec sig grid0.rank :=
  Pipeline.WinSpec.ofSpec (Memref.whole main_v13) S1x1024.size reads0_5 false true 1 stage0_5 sem0_5 nbuf0_5 hstage0_5

abbrev spec0_6 : Pipeline.WinSpec sig grid0.rank :=
  Pipeline.WinSpec.ofSpec (Memref.whole main_v14) S1x1024.size reads0_6 false true 1 stage0_6 sem0_6 nbuf0_6 hstage0_6

abbrev spec0_7 : Pipeline.WinSpec sig grid0.rank :=
  Pipeline.WinSpec.ofSpec (Memref.whole main_v15) S1x512x1024.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 | 1 => cc0_transform_1 | 2 => cc0_transform_2 | 3 => cc0_transform_3 k0_off1_inb numel1_S1 pf | 4 => cc0_transform_4 | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 pf | 4 => hreads0_4 | 5 => hreads0_5 | 6 => hreads0_6 | 7 => hreads0_7 | ⟨_ + 8, h⟩ => absurd h (Nat.not_lt.2 (Nat.le_add_left _ _))
def ok0 (pf : pre0.Contents (Elt F)) : Prop :=
  (∀ i : grid0.Coords, ∃ h : (∀ a, (cc0_transform_3 k0_off1_inb numel1_S1 pf i a + 1) * S1x1024x1024.size a ≤ S5x1024x1024.size a), EltTy.bits .bf16 = 32 ∨ (Rect.block (s := S5x1024x1024) S1x1024x1024.size (cc0_transform_3 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => hinb0_1 | 2 => hinb0_2 | 3 => fun i a => (hok i).elim fun h _ => h a | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => hwx0_1 | 2 => hwx0_2 | 3 => fun i => (hok i).elim fun _ h => h | 4 => hwx0_4 | 5 => hwx0_5 | 6 => hwx0_6 | 7 => hwx0_7 | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S16x2048x1024 : Shape := ⟨3, ![16, 2048, 1024]⟩
abbrev S1024x1024 : Shape := ⟨2, ![1024, 1024]⟩
abbrev S1024 : Shape := ⟨1, ![1024]⟩
abbrev S5x4x1024 : Shape := ⟨3, ![5, 4, 1024]⟩
abbrev S5x1024x4 : Shape := ⟨3, ![5, 1024, 4]⟩
abbrev S16 : Shape := ⟨1, ![16]⟩
abbrev S1x1x1024 : Shape := ⟨3, ![1, 1, 1024]⟩
abbrev S_ : Shape := ⟨0, ![]⟩
abbrev S16x1 : Shape := ⟨2, ![16, 1]⟩
abbrev S16x4x1024 : Shape := ⟨3, ![16, 4, 1024]⟩
abbrev S16x1024x4 : Shape := ⟨3, ![16, 1024, 4]⟩
abbrev S16x2048x4 : Shape := ⟨3, ![16, 2048, 4]⟩
abbrev S16x2048 : Shape := ⟨2, ![16, 2048]⟩
abbrev S16x2048x1 : Shape := ⟨3, ![16, 2048, 1]⟩

abbrev nBuf : Space → Nat
  | .hbm => 69
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S5x4x1024, .f32⟩
  | .hbm, ⟨5, _⟩ => ⟨S5x1024x4, .f32⟩
  | .hbm, ⟨6, _⟩ => ⟨S1024, .f32⟩
  | .hbm, ⟨7, _⟩ => ⟨S1024, .f32⟩
  | .hbm, ⟨8, _⟩ => ⟨S16, .i32⟩
  | .hbm, ⟨9, _⟩ => ⟨S16x2048x1024, .f32⟩
  | .hbm, ⟨10, _⟩ => ⟨S1x1x1024, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S1x1x1024, .f32⟩
  | .hbm, ⟨15, _⟩ => ⟨S16x2048x1024, .f32⟩
  | .hbm, ⟨16, _⟩ => ⟨S16x2048x1024, .f32⟩
  | .hbm, ⟨17, _⟩ => ⟨S_, .i32⟩
  | .hbm, ⟨18, _⟩ => ⟨S16, .i32⟩
  | .hbm, ⟨19, _⟩ => ⟨S16, .i1⟩
  | .hbm, ⟨20, _⟩ => ⟨S_, .i32⟩
  | .hbm, ⟨21, _⟩ => ⟨S16, .i32⟩
  | .hbm, ⟨22, _⟩ => ⟨S16, .i32⟩
  | .hbm, ⟨23, _⟩ => ⟨S16, .i32⟩
  | .hbm, ⟨24, _⟩ => ⟨S16x1, .i32⟩
  | .hbm, ⟨25, _⟩ => ⟨S16x4x1024, .f32⟩
  | .hbm, ⟨26, _⟩ => ⟨S_, .i32⟩
  | .hbm, ⟨27, _⟩ => ⟨S16, .i32⟩
  | .hbm, ⟨28, _⟩ => ⟨S16, .i1⟩
  | .hbm, ⟨29, _⟩ => ⟨S_, .i32⟩
  | .hbm, ⟨30, _⟩ => ⟨S16, .i32⟩
  | .hbm, ⟨31, _⟩ => ⟨S16, .i32⟩
  | .hbm, ⟨32, _⟩ => ⟨S16, .i32⟩
  | .hbm, ⟨33, _⟩ => ⟨S16x1, .i32⟩
  | .hbm, ⟨34, _⟩ => ⟨S16x1024x4, .f32⟩
  | .hbm, ⟨35, _⟩ => ⟨S16x2048x4, .f32⟩
  | .hbm, ⟨36, _⟩ => ⟨S16x2048x1024, .f32⟩
  | .hbm, ⟨37, _⟩ => ⟨S_, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S_, .f32⟩
  | .hbm, ⟨46, _⟩ => ⟨S16x2048x1, .f32⟩
  | .hbm, ⟨47, _⟩ => ⟨S16x2048x1, .f32⟩
  | .hbm, ⟨48, _⟩ => ⟨S16x2048x1024, .f32⟩
  | .hbm, ⟨49, _⟩ => ⟨S16x2048x1024, .f32⟩
  | .hbm, ⟨50, _⟩ => ⟨S16x2048x1024, .f32⟩
  | .hbm, ⟨51, _⟩ => ⟨S_, .f32⟩
  | .hbm, ⟨52, _⟩ => ⟨S16x2048, .f32⟩
  | .hbm, ⟨53, _⟩ => ⟨S16x2048x1, .f32⟩
  | .hbm, ⟨54, _⟩ => ⟨S_, .f32⟩
  | .hbm, ⟨55, _⟩ => ⟨S16x2048x1, .f32⟩
  | .hbm, ⟨56, _⟩ => ⟨S16x2048x1, .f32⟩
  | .hbm, ⟨57, _⟩ => ⟨S_, .f32⟩
  | .hbm, ⟨58, _⟩ => ⟨S16x2048x1, .f32⟩
  | .hbm, ⟨59, _⟩ => ⟨S16x2048x1, .f32⟩
  | .hbm, ⟨60, _⟩ => ⟨S16x2048x1, .f32⟩
  | .hbm, ⟨61, _⟩ => ⟨S16x2048x1024, .f32⟩
  | .hbm, ⟨62, _⟩ => ⟨S16x2048x1024, .f32⟩
  | .hbm, ⟨63, _⟩ => ⟨S1x1x1024, .f32⟩
  | .hbm, ⟨64, _⟩ => ⟨S16x2048x1024, .f32⟩
  | .hbm, ⟨65, _⟩ => ⟨S16x2048x1024, .f32⟩
  | .hbm, ⟨66, _⟩ => ⟨S1x1x1024, .f32⟩
  | .hbm, ⟨67, _⟩ => ⟨S16x2048x1024, .f32⟩
  | .hbm, ⟨68, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  bcast_S_S16 : S_.BroadcastsInDim S16 (![] : Fin 0 → Fin S16.rank)
  bcast_S16_S16x1_0 : S16.BroadcastsInDim S16x1 (![0] : Fin 1 → Fin S16x1.rank)
  bcast_S_S16x2048x1024 : S_.BroadcastsInDim S16x2048x1024 (![] : Fin 0 → Fin S16x2048x1024.rank)
  reducesTo_S16x2048x1024_S16x2048_d2 : S16x2048x1024.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x1024_0_1_2 : S16x2048x1.BroadcastsInDim S16x2048x1024 (![0, 1, 2] : Fin 3 → Fin S16x2048x1024.rank)
  dot_S16x2048x1024_S1024x1024_S16x2048x1024_2_1_01_0_n_n_wf : DotDims.WF S16x2048x1024 S1024x1024 S16x2048x1024 [2] [1] [0, 1] [0] [] []
  gather_S5x4x1024_S16x1_S16x4x1024_12_0_n_n_0_1_141024_wf : GatherDims.WF S5x4x1024 S16x1 S16x4x1024 [1, 2] [0] [] [0] [] 1 ![1, 4, 1024]
  gather_S5x1024x4_S16x1_S16x1024x4_12_0_n_n_0_1_110244_wf : GatherDims.WF S5x1024x4 S16x1 S16x1024x4 [1, 2] [0] [] [0] [] 1 ![1, 1024, 4]
  dot_S16x2048x1024_S16x4x1024_S16x2048x4_2_2_1_1_0_0_wf : DotDims.WF S16x2048x1024 S16x4x1024 S16x2048x4 [2] [2] [1] [1] [0] [0]
  dot_S16x2048x4_S16x1024x4_S16x2048x1024_2_2_1_1_0_0_wf : DotDims.WF S16x2048x4 S16x1024x4 S16x2048x1024 [2] [2] [1] [1] [0] [0]

variable [Facts₀]

def dot_S16x2048x1024_S1024x1024_S16x2048x1024_2_1_01_0_n_n : DotDims S16x2048x1024 S1024x1024 S16x2048x1024 where
  lhsContracting := [2]
  rhsContracting := [1]
  lhsNonContracting := [0, 1]
  rhsNonContracting := [0]
  lhsBatch := []
  rhsBatch := []
  wf := dot_S16x2048x1024_S1024x1024_S16x2048x1024_2_1_01_0_n_n_wf
def gather_S5x4x1024_S16x1_S16x4x1024_12_0_n_n_0_1_141024 : GatherDims S5x4x1024 S16x1 S16x4x1024 where
  offsetDims := [1, 2]
  collapsedSliceDims := [0]
  operandBatchingDims := []
  startIndicesBatchingDims := []
  startIndexMap := [0]
  indexVectorDim := 1
  sliceSizes := ![1, 4, 1024]
  wf := gather_S5x4x1024_S16x1_S16x4x1024_12_0_n_n_0_1_141024_wf
def gather_S5x1024x4_S16x1_S16x1024x4_12_0_n_n_0_1_110244 : GatherDims S5x1024x4 S16x1 S16x1024x4 where
  offsetDims := [1, 2]
  collapsedSliceDims := [0]
  operandBatchingDims := []
  startIndicesBatchingDims := []
  startIndexMap := [0]
  indexVectorDim := 1
  sliceSizes := ![1, 1024, 4]
  wf := gather_S5x1024x4_S16x1_S16x1024x4_12_0_n_n_0_1_110244_wf
def dot_S16x2048x1024_S16x4x1024_S16x2048x4_2_2_1_1_0_0 : DotDims S16x2048x1024 S16x4x1024 S16x2048x4 where
  lhsContracting := [2]
  rhsContracting := [2]
  lhsNonContracting := [1]
  rhsNonContracting := [1]
  lhsBatch := [0]
  rhsBatch := [0]
  wf := dot_S16x2048x1024_S16x4x1024_S16x2048x4_2_2_1_1_0_0_wf
def dot_S16x2048x4_S16x1024x4_S16x2048x1024_2_2_1_1_0_0 : DotDims S16x2048x4 S16x1024x4 S16x2048x1024 where
  lhsContracting := [2]
  rhsContracting := [2]
  lhsNonContracting := [1]
  rhsNonContracting := [1]
  lhsBatch := [0]
  rhsBatch := [0]
  wf := dot_S16x2048x4_S16x1024x4_S16x2048x1024_2_2_1_1_0_0_wf

class Facts : Prop extends Facts₀ where

variable [Facts]
-- ==== Proof.LibGatherScatter.lean ====
import Idealize.ShloMosaic.PureOps.Ideal
import Idealize.ShloMosaic.Lib.ValueIdx
import Idealize.ShloMosaic.Lib.ValueIdxRank1
import Mathlib.Algebra.BigOperators.Group.Finset.Basic

/-!
# Row gathers and segment scatters, read at an index

`table[ids]` for a table of `N` rows of length `C` and `n` ids lowers to a gather whose start indices are the
ids as an `[n, 1]` array: result row `t` is the table's row at the id, read as a signed integer and clamped into
`[0, N - 1]`. A segment sum (`segment_sum(v, ids, K)`) lowers to a scatter-add of the `n` updates into `K`
zeros at the ids as an `[n, 1]` array: update `t` lands on element `s` exactly when the id, read signed and NOT
clamped, is `s`; an id outside `[0, K)` lands nowhere.
-/

noncomputable section

open scoped BigOperators
open Idealize.ShloMosaic Idealize.ShloMosaic.ValueIdx

namespace Cert.Lib

/-- The row a start word selects among `N` rows: the word read as a signed integer, clamped into `[0, N - 1]`. -/
def clampRow (N : Nat) (hN : 0 < N) (w : BitVec 32) : Fin N := ⟨min w.toInt.toNat (N - 1), by omega⟩

/-- A negative index counted from the end: `w + n` when `w < 0` (signed), else `w`. -/
def normIdx (n w : BitVec 32) : BitVec 32 := Scalar.select (IntOp.cmpi .slt w 0#32) (IntOp.addi w n) w

/-- The dimension numbers of a row gather: operand `[N, C]`, start indices `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, k)`: the operand's row at the clamped start word, place `k`. -/
theorem gather_rows_apply {α : Type} {N C n : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ 32) (t : Fin n) (k : Fin C) :
    Host.gather (rowGatherDims N C n wf) x idx (ix2 t k) = x (ix2 (clampRow N hN (idx (ix2 t 0))) k) := by
  unfold Host.gather
  congr 1
  -- axis 0 is collapsed and start-indexed: the clamped start word, no batching and no offset coordinate
  have h0 : (rowGatherDims N C n wf).start (ix2 t k) idx (0 : Fin 2) + (rowGatherDims N C n wf).batchCoord (ix2 t k) (0 : Fin 2)
      + (rowGatherDims N C n wf).offCoord (ix2 t k) (0 : Fin 2) = (clampRow N hN (idx (ix2 t 0))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 t k) ⟨List.idxOf (0 : Fin 2) (rowGatherDims N C n wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  -- axis 1 is kept and not start-indexed: start 0, and the offset coordinate is the result's second coordinate
  have h1 : (rowGatherDims N C n wf).start (ix2 t k) idx (1 : Fin 2) + (rowGatherDims N C n wf).batchCoord (ix2 t k) (1 : Fin 2)
      + (rowGatherDims N C n wf).offCoord (ix2 t k) (1 : Fin 2) = k.val := by
    rw [GatherDims.batchCoord_eq_zero _ _ _ List.not_mem_nil]
    have hnot : (1 : Fin 2) ∉ (rowGatherDims N C n wf).startIndexMap := by
      show (1 : Fin 2) ∉ ([0] : List (Fin 2))
      decide
    have hk : (1 : Fin 2) ∈ (rowGatherDims N C n wf).sKept := by
      rw [GatherDims.mem_sKept]
      refine ⟨?_, List.not_mem_nil⟩
      show (1 : Fin 2) ∉ ([0] : List (Fin 2))
      decide
    unfold GatherDims.start
    rw [dif_neg hnot]
    simp only [Nat.zero_add, Nat.add_zero]
    unfold GatherDims.offCoord
    rw [dif_pos hk]
    rfl
  funext a
  refine Fin.ext ?_
  match a with
  | ⟨0, _⟩ => exact h0
  | ⟨1, _⟩ => exact h1

/-- The dimension numbers of an element gather from a flat table: operand `[N]`, start indices `[n, 1]`, result `[n]`. -/
abbrev eltGatherDims (N n : Nat)
    (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- THE ELEMENT GATHER READ AT `t`: the table at the clamped start word. -/
theorem gather_elts_apply {α : Type} {N n : Nat} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ 32) (t : Fin n) :
    Host.gather (eltGatherDims N n wf) x idx (ix1 t) = x (ix1 (clampRow N hN (idx (ix2 t 0)))) := by
  unfold Host.gather
  congr 1
  funext a
  obtain rfl : a = 0 := Subsingleton.elim _ _
  refine Fin.ext ?_
  show (eltGatherDims N n wf).start (ix1 t) idx 0 + (eltGatherDims N n wf).batchCoord (ix1 t) 0
    + (eltGatherDims N n wf).offCoord (ix1 t) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N n wf).startIndexMap from List.mem_singleton.mpr rfl)]
  have hsi : (eltGatherDims N n wf).siIdx (ix1 t) ⟨List.idxOf (0 : Fin 1) (eltGatherDims N n wf).startIndexMap,
      List.idxOf_lt_length_iff.2 (List.mem_singleton.mpr rfl)⟩ = ix2 t 0 := by
    funext b; refine Fin.ext ?_
    match b with
    | ⟨0, _⟩ => rfl
    | ⟨1, _⟩ => rfl
  rw [hsi]
  rfl

/-- The dimension numbers of a segment scatter: operand `[K]`, scatter indices `[n, 1]`, updates `[n]`. -/
abbrev segScatterDims (K n : Nat) (wf : ScatterDims.WF ⟨1, ![K]⟩ ⟨2, ![n, 1]⟩ ⟨1, ![n]⟩ [] [0] [0] 1) :
    ScatterDims ⟨1, ![K]⟩ ⟨2, ![n, 1]⟩ ⟨1, ![n]⟩ where
  updateWindowDims := []
  insertedWindowDims := [0]
  scatterDimsToOperandDims := [0]
  indexVectorDim := 1
  wf := wf

/-- Update `t` of a segment scatter lands on element `s` exactly when its index word, read signed, is `s`. -/
theorem segScatter_resultIdx_iff {K n : Nat} (wf : ScatterDims.WF ⟨1, ![K]⟩ ⟨2, ![n, 1]⟩ ⟨1, ![n]⟩ [] [0] [0] 1)
    (idx : IVec ⟨2, ![n, 1]⟩ 32) (t : Fin n) (s : Fin K) :
    (segScatterDims K n wf).resultIdx? (ix1 t) idx = some (ix1 s) ↔ (idx (ix2 t 0)).toInt = (s.val : Int) := by
  -- on the operand's one axis the start is the index word read signed, and the window coordinate is 0 (the axis is inserted)
  have hstart : (segScatterDims K n wf).start (ix1 t) idx (0 : Fin 1) = (idx (ix2 t 0)).toInt := by
    unfold ScatterDims.start
    rw [dif_pos (show (0 : Fin 1) ∈ (segScatterDims K n wf).scatterDimsToOperandDims from List.mem_singleton.mpr rfl)]
    have hsi : (segScatterDims K n wf).siIdx (ix1 t) ⟨List.idxOf (0 : Fin 1) (segScatterDims K n wf).scatterDimsToOperandDims,
        List.idxOf_lt_length_iff.2 (List.mem_singleton.mpr rfl)⟩ = ix2 t 0 := by
      funext b; refine Fin.ext ?_
      match b with
      | ⟨0, _⟩ => rfl
      | ⟨1, _⟩ => rfl
    rw [hsi]
  have hwin : (segScatterDims K n wf).window (ix1 t) (0 : Fin 1) = 0 := by
    unfold ScatterDims.window
    rw [dif_neg]
    show (0 : Fin 1) ∉ (⟨1, ![K]⟩ : Shape).kept [0]
    simp [Shape.kept]
  have hsz : (⟨1, ![K]⟩ : Shape).size (0 : Fin 1) = K := rfl
  have hs := s.isLt
  unfold ScatterDims.resultIdx?
  constructor
  · intro h
    split at h
    · rename_i hin
      have h2 := congrArg Fin.val (congrFun (Option.some.inj h) (0 : Fin 1))
      have h3 := (hin 0).1
      rw [hstart, hwin] at h3
      change ((segScatterDims K n wf).start (ix1 t) idx 0 + ((segScatterDims K n wf).window (ix1 t) 0 : Nat)).toNat = s.val at h2
      rw [hstart, hwin] at h2
      omega
    · exact absurd h (by simp)
  · intro hv
    have hin : ∀ a, 0 ≤ (segScatterDims K n wf).start (ix1 t) idx a + ((segScatterDims K n wf).window (ix1 t) a : Nat)
        ∧ (segScatterDims K n wf).start (ix1 t) idx a + ((segScatterDims K n wf).window (ix1 t) a : Nat)
          < ((⟨1, ![K]⟩ : Shape).size a : Nat) := by
      intro a
      obtain rfl : a = 0 := Subsingleton.elim _ _
      rw [hstart, hwin, hv, hsz]
      omega
    rw [dif_pos hin]
    congr 1
    funext a
    obtain rfl : a = 0 := Subsingleton.elim _ _
    refine Fin.ext ?_
    show ((segScatterDims K n wf).start (ix1 t) idx 0 + ((segScatterDims K n wf).window (ix1 t) 0 : Nat)).toNat = s.val
    rw [hstart, hwin, hv]
    simp

/-- A signed 32-bit word is the small natural `s` exactly when it is the word of `s`. -/
theorem toInt_eq_iff_eq_ofNat (w : BitVec 32) (s : Nat) (hs : s < 2 ^ 31) :
    w.toInt = (s : Int) ↔ w = BitVec.ofNat 32 s := by
  constructor
  · intro h
    have h2 := congrArg (BitVec.ofInt 32) h
    rwa [BitVec.ofInt_toInt, BitVec.ofInt_natCast] at h2
  · rintro rfl
    rw [BitVec.toInt_eq_toNat_cond, BitVec.toNat_ofNat]
    have hmod : s % 2 ^ 32 = s := Nat.mod_eq_of_lt (by omega)
    rw [hmod, if_pos (by omega)]

/-- THE SEGMENT SCATTER-ADD READ AT `s` (at the ideal instance): the operand's element plus the sum of the updates
    whose index word is the word of `s`. -/
theorem hostScatterAdd_seg_apply {K n : Nat} (hK : K ≤ 2 ^ 31)
    (wf : ScatterDims.WF ⟨1, ![K]⟩ ⟨2, ![n, 1]⟩ ⟨1, ![n]⟩ [] [0] [0] 1)
    (x : (⟨1, ![K]⟩ : Shape).Idx → EReal) (idx : IVec ⟨2, ![n, 1]⟩ 32) (upd : (⟨1, ![n]⟩ : Shape).Idx → EReal)
    (s : Fin K) :
    Ideal.hostScatterAdd (segScatterDims K n wf) x idx upd (ix1 s)
      = x (ix1 s) + ∑ t ∈ Finset.univ.filter (fun t : Fin n => idx (ix2 t 0) = BitVec.ofNat 32 s.val), upd (ix1 t) := by
  unfold Ideal.hostScatterAdd
  congr 1
  -- re-index the updates' rank-1 indices by their coordinate; an update lands on `s` iff its word is the word of `s`
  refine Finset.sum_equiv idxEquiv1 ?_ ?_
  · intro j
    obtain ⟨t, rfl⟩ : ∃ t : Fin n, j = ix1 t := ⟨j 0, eq_ix1 j⟩
    simp only [Finset.mem_filter, Finset.mem_univ, true_and]
    show _ ↔ idx (ix2 t 0) = BitVec.ofNat 32 s.val
    rw [segScatter_resultIdx_iff, toInt_eq_iff_eq_ofNat _ _ (by have := s.isLt; omega)]
  · intro j _
    obtain ⟨t, rfl⟩ : ∃ t : Fin n, j = ix1 t := ⟨j 0, eq_ix1 j⟩
    rfl

end Cert.Lib

end
-- ==== Proof.Tasks.lean ====
/-
  Which of the five tasks a batch row uses, as each program reads it off the row's 32-bit task word `w`.

  One program clips the word into `[0, 4]` as a signed integer. The other first counts a negative word from the end
  (`w + 5` when `w < 0`) and then reads the table at that word clamped into `[0, 4]`. For a word in `[0, 5)` both are
  the word itself; they differ exactly at `w ∈ {-4, …, -1}`, where the first gives task 0 and the second task `w + 5`.
-/
import Idealize.ShloMosaic.PureOps.Ideal
import proofs.«430803_j74809740362143_2_alg».proof.Proof.LibGatherScatter

noncomputable section

namespace Cert.Spec

open Idealize.ShloMosaic

/-- The task word clipped into `[0, 4]`, signed: `min 4 (max 0 w)`. -/
def kerWord (w : BitVec 32) : BitVec 32 := IntOp.minsi 4#32 (IntOp.maxsi 0#32 w)

/-- The task the clipped word names. -/
def kerTaskVal (w : BitVec 32) : Nat := (kerWord w).toNat

/-- The task read by counting a negative word from the end and clamping into `[0, 4]`. -/
def refTask (w : BitVec 32) : Fin 5 := Cert.Lib.clampRow 5 (by decide) (Cert.Lib.normIdx 5#32 w)

/-- A word below five, read as a signed integer, is itself. -/
theorem toInt_of_small (w : BitVec 32) (hw : w.toNat < 5) : w.toInt = (w.toNat : Int) := by
  rw [BitVec.toInt_eq_toNat_cond]
  have : 2 * w.toNat < 2 ^ 32 := by omega
  rw [if_pos this]

/-- The clipped word names one of the five tasks, whatever the word. -/
theorem kerWord_lt (w : BitVec 32) : (kerWord w).toNat < 5 := by
  unfold kerWord IntOp.minsi IntOp.maxsi
  have e0 : (0#32 : BitVec 32).toInt = 0 := by decide
  have e4 : (4#32 : BitVec 32).toInt = 4 := by decide
  have hw := w.isLt
  split_ifs with h1 h2 h2
  · decide
  · decide
  · decide
  · simp only [BitVec.slt, decide_eq_true_eq, not_lt, e0, e4] at h1 h2
    rw [BitVec.toInt_eq_toNat_cond] at h1 h2
    split at h1 <;> omega

/-- On a word in `[0, 5)` the clip changes nothing. -/
theorem kerWord_of_small (w : BitVec 32) (hw : w.toNat < 5) : kerWord w = w := by
  unfold kerWord IntOp.minsi IntOp.maxsi
  have e0 : (0#32 : BitVec 32).toInt = 0 := by decide
  have e4 : (4#32 : BitVec 32).toInt = 4 := by decide
  have hi := toInt_of_small w hw
  have h1 : w.slt 0#32 = false := by simp only [BitVec.slt, e0, hi, decide_eq_false_iff_not]; omega
  rw [h1]
  have h2 : (4#32 : BitVec 32).slt w = false := by simp only [BitVec.slt, e4, hi, decide_eq_false_iff_not]; omega
  simp [h2]

/-- On a word in `[0, 5)` counting from the end and clamping change nothing: the task is the word. -/
theorem refTask_of_small (w : BitVec 32) (hw : w.toNat < 5) : (refTask w).val = w.toNat := by
  unfold refTask Cert.Lib.clampRow Cert.Lib.normIdx Scalar.select IntOp.cmpi
  have e0 : (0#32 : BitVec 32).toInt = 0 := by decide
  have hi := toInt_of_small w hw
  have h1 : w.slt 0#32 = false := by simp only [BitVec.slt, e0, hi, decide_eq_false_iff_not]; omega
  simp only [h1]
  show min (if BitVec.ofBool false = 1 then IntOp.addi w 5#32 else w).toInt.toNat (5 - 1) = w.toNat
  rw [if_neg (by decide)]
  rw [hi]; simp; omega

end Cert.Spec

end
-- ==== Proof.Ok.lean ====
/-
  The prefetched table holds each batch row's task word clipped into [0, 4], so the block of the merged-weight stack
  that the table selects always lies inside the stack of five: the pipeline's side condition holds for every input.
-/
import proofs.«430803_j74809740362143_2_alg».proof.Proof.Gen.KernelIdeal.Frame
import proofs.«430803_j74809740362143_2_alg».proof.Proof.Tasks
import Idealize.ShloMosaic.Lib.ValueIdx
import Idealize.ShloMosaic.Lib.StableHlo.Run

noncomputable section

open scoped BigOperators

namespace Cert.KernelIdeal.OkProof

open Cert.KernelIdeal Cert.KernelIdeal.Gen Idealize.ShloMosaic Idealize.ShloMosaic.TcCoe Idealize.ShloMosaic.ValueIdx
open Idealize.ShloMosaic.StableHlo

variable {F : FTy → Type} [FloatOps F] (m : (ℓ : Loc nD τ sig) → Buf (Elt F) ℓ)

/-- The table as the host leaves it: the minimum with four of the maximum with zero of the task words, both signed
    and elementwise. -/
theorem tbl_eq :
    (tbl m 0 : S16.Idx → BitVec 32)
      = minsi (broadcastInDim S16 ![] bcast_S_S16 (id (constantI S_ 32 4#32)))
          (maxsi (broadcastInDim S16 ![] bcast_S_S16 (id (constantI S_ 32 0#32)))
            (m (((0 : Dev nD) : Thread nD τ).loc main_arg8) : S16.Idx → BitVec 32)) := by
  unfold Gen.tbl
  show V m 0 main_v0 = _
  dsimp only [Gen.V]
  simp only [Gen.hostOps0, Gen.hostOps0_1, Gen.hostOps0_2, List.flatten_cons, List.flatten_nil, List.append_nil,
    List.cons_append, List.nil_append]
  after_results
  rfl

/-- Every word of the table is the clip of the task word at the same place. -/
theorem tbl_apply (j : S16.Idx) :
    (tbl m 0 : S16.Idx → BitVec 32) j = Cert.Spec.kerWord (m (((0 : Dev nD) : Thread nD τ).loc main_arg8) j) := by
  rw [tbl_eq]; rfl

/-- The table the region prefetches: each task word clipped, as a signed integer, into `[0, 4]`. -/
theorem tbl_word (b : Fin 16) :
    (tbl m 0 : S16.Idx → BitVec 32) (ix1 b)
      = Cert.Spec.kerWord (m (((0 : Dev nD) : Thread nD τ).loc main_arg8) (ix1 b)) :=
  tbl_apply m (ix1 b)

/-- The one index of the one-element rectangle at offset `i 0` of the table is index `i 0`. -/
theorem row_idx (i : grid0.Coords) (off : Fin 1 → Nat) (hoff : off 0 = (i 0).val)
    (inb : ∀ a, off a + S1.size a ≤ S16.size a) (h1 : 0 < S1.numel) :
    (Rect.unit (s := S16) off S1.size inb).emb (Shape.Idx.first h1) = ix1 (i 0) := by
  funext a
  apply Fin.ext
  match a with
  | ⟨0, _⟩ =>
    show off 0 + 1 * (Shape.Idx.first h1 (0 : Fin 1)).val = (i 0).val
    have h0 : (Shape.Idx.first h1 (0 : Fin 1)).val = 0 := rfl
    rw [h0, hoff, Nat.mul_zero, Nat.add_zero]

/-- A grid coordinate of the batch axis, as a 32-bit word and back, is itself. -/
theorem coord_toNat (i : grid0.Coords) : (Scalar.indexCast (BitVec.ofNat 32 (i 0).val)).toNat = (i 0).val := by
  have h := (i 0).isLt
  have h16 : grid0.bound 0 = 16 := rfl
  show (BitVec.ofNat 32 (i 0).val).toNat = (i 0).val
  rw [BitVec.toNat_ofNat]
  exact Nat.mod_eq_of_lt (by omega)

/-- The merged-weight window's block index at a grid point: the clipped task word of the point's batch row, then zeros. -/
theorem transform3_eq (i : grid0.Coords) :
    cc0_transform_3 k0_off1_inb numel1_S1 (tbl m) i
      = ![(Cert.Spec.kerWord (m (((0 : Dev nD) : Thread nD τ).loc main_arg8) (ix1 (i 0)))).toNat, 0, 0] := by
  have e : ∀ (inb : ∀ a, (![(Scalar.indexCast (BitVec.ofNat 32 (i 0).val)).toNat] : Fin 1 → Nat) a + S1.size a ≤ S16.size a)
      (h1 : 0 < S1.numel),
      (tbl m 0 : S16.Idx → BitVec 32)
          ((Rect.unit (s := S16) ![(Scalar.indexCast (BitVec.ofNat 32 (i 0).val)).toNat] S1.size inb).emb (Shape.Idx.first h1))
        = Cert.Spec.kerWord (m (((0 : Dev nD) : Thread nD τ).loc main_arg8) (ix1 (i 0))) := fun inb h1 => by
    rw [tbl_apply, row_idx i _ (coord_toNat i) inb h1]
    rfl
  exact congrArg (fun w : BitVec 32 => (![w.toNat, 0, 0] : Fin 3 → Nat)) (e (k0_off1_inb i) (by decide))

/-- Every word of the table names one of the five tasks. -/
theorem tbl_lt (j : S16.Idx) : ((tbl m 0 : S16.Idx → BitVec 32) j).toNat < 5 := by
  rw [tbl_apply]; exact Cert.Spec.kerWord_lt _

/-- The pipeline's side condition on the table, for every input. -/
theorem ok : Ok m := by
  intro i
  -- the block index of the merged-weight window is (the table's word at the row, 0, 0), and the word is below five
  obtain ⟨w, hw, e⟩ : ∃ w : BitVec 32, w.toNat < 5 ∧
      cc0_transform_3 k0_off1_inb numel1_S1 (tbl m) i = ![w.toNat, 0, 0] :=
    ⟨_, tbl_lt m _, rfl⟩
  refine ⟨fun a => ?_, Or.inr (Affine.block_words_dvd (of_decide_eq_true rfl) (by decide))⟩
  rw [e]
  fin_cases a <;> simp [S1x1024x1024, S5x1024x1024] <;> omega

end Cert.KernelIdeal.OkProof

end
-- ==== Proof.OkBits.lean ====
/-
  The prefetched table holds each batch row's task word clipped into [0, 4], so the block of the merged-weight stack
  that the table selects always lies inside the stack of five: the pipeline's side condition holds for every input.
-/
import proofs.«430803_j74809740362143_2_alg».proof.Proof.Gen.Kernel.Frame
import proofs.«430803_j74809740362143_2_alg».proof.Proof.Tasks
import Idealize.ShloMosaic.Lib.ValueIdx
import Idealize.ShloMosaic.Lib.StableHlo.Run

noncomputable section

open scoped BigOperators

namespace Cert.Kernel.OkProof

open Cert.Kernel Cert.Kernel.Gen Idealize.ShloMosaic Idealize.ShloMosaic.TcCoe Idealize.ShloMosaic.ValueIdx
open Idealize.ShloMosaic.StableHlo

variable {F : FTy → Type} [FloatOps F] (m : (ℓ : Loc nD τ sig) → Buf (Elt F) ℓ)

/-- The table as the host leaves it: the minimum with four of the maximum with zero of the task words, both signed
    and elementwise. -/
theorem tbl_eq :
    (tbl m 0 : S16.Idx → BitVec 32)
      = minsi (broadcastInDim S16 ![] bcast_S_S16 (id (constantI S_ 32 4#32)))
          (maxsi (broadcastInDim S16 ![] bcast_S_S16 (id (constantI S_ 32 0#32)))
            (m (((0 : Dev nD) : Thread nD τ).loc main_arg8) : S16.Idx → BitVec 32)) := by
  unfold Gen.tbl
  show V m 0 main_v0 = _
  dsimp only [Gen.V]
  simp only [Gen.hostOps0, Gen.hostOps0_1, Gen.hostOps0_2, List.flatten_cons, List.flatten_nil, List.append_nil,
    List.cons_append, List.nil_append]
  after_results
  rfl

/-- Every word of the table is the clip of the task word at the same place. -/
theorem tbl_apply (j : S16.Idx) :
    (tbl m 0 : S16.Idx → BitVec 32) j = Cert.Spec.kerWord (m (((0 : Dev nD) : Thread nD τ).loc main_arg8) j) := by
  rw [tbl_eq]; rfl

/-- The table the region prefetches: each task word clipped, as a signed integer, into `[0, 4]`. -/
theorem tbl_word (b : Fin 16) :
    (tbl m 0 : S16.Idx → BitVec 32) (ix1 b)
      = Cert.Spec.kerWord (m (((0 : Dev nD) : Thread nD τ).loc main_arg8) (ix1 b)) :=
  tbl_apply m (ix1 b)

/-- The one index of the one-element rectangle at offset `i 0` of the table is index `i 0`. -/
theorem row_idx (i : grid0.Coords) (off : Fin 1 → Nat) (hoff : off 0 = (i 0).val)
    (inb : ∀ a, off a + S1.size a ≤ S16.size a) (h1 : 0 < S1.numel) :
    (Rect.unit (s := S16) off S1.size inb).emb (Shape.Idx.first h1) = ix1 (i 0) := by
  funext a
  apply Fin.ext
  match a with
  | ⟨0, _⟩ =>
    show off 0 + 1 * (Shape.Idx.first h1 (0 : Fin 1)).val = (i 0).val
    have h0 : (Shape.Idx.first h1 (0 : Fin 1)).val = 0 := rfl
    rw [h0, hoff, Nat.mul_zero, Nat.add_zero]

/-- A grid coordinate of the batch axis, as a 32-bit word and back, is itself. -/
theorem coord_toNat (i : grid0.Coords) : (Scalar.indexCast (BitVec.ofNat 32 (i 0).val)).toNat = (i 0).val := by
  have h := (i 0).isLt
  have h16 : grid0.bound 0 = 16 := rfl
  show (BitVec.ofNat 32 (i 0).val).toNat = (i 0).val
  rw [BitVec.toNat_ofNat]
  exact Nat.mod_eq_of_lt (by omega)

/-- The merged-weight window's block index at a grid point: the clipped task word of the point's batch row, then zeros. -/
theorem transform3_eq (i : grid0.Coords) :
    cc0_transform_3 k0_off1_inb numel1_S1 (tbl m) i
      = ![(Cert.Spec.kerWord (m (((0 : Dev nD) : Thread nD τ).loc main_arg8) (ix1 (i 0)))).toNat, 0, 0] := by
  have e : ∀ (inb : ∀ a, (![(Scalar.indexCast (BitVec.ofNat 32 (i 0).val)).toNat] : Fin 1 → Nat) a + S1.size a ≤ S16.size a)
      (h1 : 0 < S1.numel),
      (tbl m 0 : S16.Idx → BitVec 32)
          ((Rect.unit (s := S16) ![(Scalar.indexCast (BitVec.ofNat 32 (i 0).val)).toNat] S1.size inb).emb (Shape.Idx.first h1))
        = Cert.Spec.kerWord (m (((0 : Dev nD) : Thread nD τ).loc main_arg8) (ix1 (i 0))) := fun inb h1 => by
    rw [tbl_apply, row_idx i _ (coord_toNat i) inb h1]
    rfl
  exact congrArg (fun w : BitVec 32 => (![w.toNat, 0, 0] : Fin 3 → Nat)) (e (k0_off1_inb i) (by decide))

/-- Every word of the table names one of the five tasks. -/
theorem tbl_lt (j : S16.Idx) : ((tbl m 0 : S16.Idx → BitVec 32) j).toNat < 5 := by
  rw [tbl_apply]; exact Cert.Spec.kerWord_lt _

/-- The pipeline's side condition on the table, for every input. -/
theorem ok : Ok m := by
  intro i
  -- the block index of the merged-weight window is (the table's word at the row, 0, 0), and the word is below five
  obtain ⟨w, hw, e⟩ : ∃ w : BitVec 32, w.toNat < 5 ∧
      cc0_transform_3 k0_off1_inb numel1_S1 (tbl m) i = ![w.toNat, 0, 0] :=
    ⟨_, tbl_lt m _, rfl⟩
  refine ⟨fun a => ?_, Or.inr (Affine.block_words_dvd (of_decide_eq_true rfl) (by decide))⟩
  rw [e]
  fin_cases a <;> simp [S1x1024x1024, S5x1024x1024] <;> omega

end Cert.Kernel.OkProof

end
-- ==== Proof.Spec.lean ====
/-
  The mathematics both programs compute, row by row, on the extended reals.

  A row `x` of 1024 hidden features goes through two dense layers and a layer normalisation. The first layer is
  `h = x Wᵀ + b`. The second is the same projection with a per-task low-rank correction of rank four, scaled by a quarter:
  `h Wᵀ + b + ¼ (h Aᵀ) Bᵀ`. One program applies the correction to the weights first — it multiplies `h` by the merged matrix
  `Wᵀ + ¼ Aᵀ Bᵀ` (`preK`) — and the other applies it to the activations (`preR`). The residual row is added, and the
  result is normalised over its 1024 features: centred by its mean, scaled by the reciprocal square root of its variance
  plus a small constant, then by `gamma`, and shifted by `beta` (`lnorm`).

  On finite data the two second layers agree, by distributivity of the product over the sum and an exchange of the two
  sums (`Join.lean`); on the extended reals distributivity fails at the infinities, which is why finiteness is needed.
-/
import Idealize.ShloMosaic.PureOps.Ideal
import Idealize.ShloMosaic.Lib.ValueIdx

noncomputable section

open scoped BigOperators

namespace Cert.Spec

open Idealize.ShloMosaic

/-- A row of 1024 features, and a 1024 × 1024 matrix, over the extended reals. -/
abbrev Row := Fin 1024 → EReal
abbrev Mat := Fin 1024 → Fin 1024 → EReal

/-- The three float constants of the computation, as the extended reals their f32 words denote: the low-rank scale
    one quarter, the feature count 1024 the mean divides by, and the variance's small additive constant. -/
def quarter : EReal := Ideal.ofBits .f32 0x3E800000#32
def count : EReal := Ideal.ofBits .f32 0x44800000#32
def eps : EReal := Ideal.ofBits .f32 0x3727C5AC#32

/-- An extended real that is a real number. -/
def IsReal (a : EReal) : Prop := ∃ r : ℝ, a = (r : EReal)

/-- A dense layer on a row: `(x Wt + b) e = Σ_d x d · Wt d e + b e`. -/
def dense (x : Row) (Wt : Mat) (b : Row) : Row := fun e => (∑ d : Fin 1024, x d * Wt d e) + b e

/-- The merged second-layer matrix of one task: `Wᵀ + ¼ Aᵀ Bᵀ`, entry `(d, e)` being `W e d + ¼ Σ_r A r d · B e r`. -/
def merged (W : Mat) (A : Fin 4 → Row) (B : Fin 1024 → Fin 4 → EReal) : Mat :=
  fun d e => W e d + quarter * ∑ r : Fin 4, A r d * B e r

/-- The row before normalisation, correction merged into the weights: two dense layers, the second through the
    matrix `Mt`, then the residual. -/
def preK (x : Row) (Wt Mt : Mat) (b res : Row) : Row := fun e => dense (dense x Wt b) Mt b e + res e

/-- The row before normalisation, correction applied to the activations: with `h = x Wᵀ + b`, entry `e` is
    `(Σ_d h d · W e d + b e) + ¼ Σ_r (Σ_d h d · A r d) · B e r`, then the residual. -/
def preR (x : Row) (W : Mat) (A : Fin 4 → Row) (B : Fin 1024 → Fin 4 → EReal) (b res : Row) : Row := fun e =>
  (((∑ d : Fin 1024, dense x (fun k d => W d k) b d * W e d) + b e)
    + quarter * ∑ r : Fin 4, (∑ d : Fin 1024, dense x (fun k d => W d k) b d * A r d) * B e r) + res e

/-- The mean of a row: its sum divided by the feature count. -/
def mean (x : Row) : EReal := Ideal.div (∑ k : Fin 1024, x k) count

/-- Layer normalisation of a row. -/
def lnorm (x g be : Row) : Row := fun e =>
  ((x e - mean x) * Ideal.rsqrt (mean (fun k => (x k - mean x) * (x k - mean x)) + eps)) * g e + be e

end Cert.Spec

end
-- ==== Proof.Finite.lean ====
/-
  What the precondition says of the nine argument arrays: every entry of the eight float arrays is a real number, and
  every task word is one of 0, 1, 2, 3, 4.

  The precondition is one bit: the `and` of ten bits. Eight of them say, each of one float array `x`, that `|x| < +∞`
  holds at every entry (an `and` over all entries); on the extended reals `|a| = max a (-a)` is `+∞` at both
  infinities, so an entry with `|a| < +∞` is a real number. The last two say of the task words that each is, read as a
  signed integer, at least 0 and below 5; such a word reads the same unsigned, so it is below 5.
-/
import proofs.«430803_j74809740362143_2_alg».proof.Proof.Gen.Pre_finite_inputs
import proofs.«430803_j74809740362143_2_alg».proof.Proof.Spec
import Idealize.ShloMosaic.Lib.ReduceAll
import Idealize.ShloMosaic.Lib.ValueIdx

noncomputable section

open scoped BigOperators

namespace Cert.Finite

open Cert.Pre_finite_inputs Idealize.ShloMosaic Idealize.ShloMosaic.ValueIdx

/-- The shape of rank zero has one index. -/
instance subsingleton_idx0 : Subsingleton (⟨0, ![]⟩ : Shape).Idx := ⟨fun a b => funext fun d => d.elim0⟩

/-- The f32 word `0x7F800000` denotes `+∞`. -/
theorem inf_word : Ideal.ofBits .f32 0x7F800000#32 = (⊤ : EReal) := by simp [Ideal.ofBits, Ideal.ieee]

/-- An extended real whose absolute value `max a (-a)` is below `+∞` is a real number. -/
theorem real_of_abs_lt_top (a : EReal) (h : Ideal.cmp .olt (max a (-a)) (⊤ : EReal) = 1#1) : Cert.Spec.IsReal a := by
  induction a using EReal.rec with
  | bot => simp [Ideal.cmp] at h
  | coe r => exact ⟨r, rfl⟩
  | top => simp [Ideal.cmp] at h

/-- One float conjunct: if the `and` over all entries of `|x| < +∞` is 1, every entry of `x` is a real number. -/
theorem float_all {s : Shape} {axes : List (Fin s.rank)} (x : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel)
    (e : Host.reduce IntOp.andi (cmpf .olt (Host.absf x) (broadcastInDim s ![] hb (constant ⟨0, ![]⟩ .f32 0x7F800000#32)))
          (constantI ⟨0, ![]⟩ 1 1#1) hr h0 ix0 = 1#1) (i : s.Idx) : Cert.Spec.IsReal (x i) := by
  have h1 := Host.reduce_andi_all _ _ hr h0 ix0 e i
  apply real_of_abs_lt_top
  rw [← inf_word]
  exact h1

/-- A 32-bit word that reads nonnegative and below five as a signed integer is one of 0, 1, 2, 3, 4. -/
theorem word_lt_five (w : BitVec 32) (h1 : IntOp.cmpi .sge w 0#32 = 1#1) (h2 : IntOp.cmpi .slt w 5#32 = 1#1) : w.toNat < 5 := by
  rw [IntOp.cmpi_sge] at h1
  rw [IntOp.cmpi_slt] at h2
  have e0 : (0#32 : BitVec 32).toInt = 0 := by decide
  have e5 : (5#32 : BitVec 32).toInt = 5 := by decide
  rw [e0] at h1
  rw [e5] at h2
  rw [BitVec.toInt_eq_toNat_cond] at h1 h2
  split at h1 <;> omega

/-- The integer conjuncts: if the `and` over all entries of `w ≥ 0` and of `w < 5` (signed) are both 1, every word is
    below five. -/
theorem int_all {s : Shape} {axes : List (Fin s.rank)} (x : IVec s 32)
    (hb : (⟨0, ![]⟩ : Shape).BroadcastsInDim s (![] : Fin 0 → Fin s.rank)) (hr : s.ReducesTo axes ⟨0, ![]⟩)
    (h0 : 0 < (⟨0, ![]⟩ : Shape).numel)
    (e1 : Host.reduce IntOp.andi (cmpi .sge x (broadcastInDim s ![] hb (constantI ⟨0, ![]⟩ 32 0#32)))
          (constantI ⟨0, ![]⟩ 1 1#1) hr h0 ix0 = 1#1)
    (e2 : Host.reduce IntOp.andi (cmpi .slt x (broadcastInDim s ![] hb (constantI ⟨0, ![]⟩ 32 5#32)))
          (constantI ⟨0, ![]⟩ 1 1#1) hr h0 ix0 = 1#1) (i : s.Idx) : (x i).toNat < 5 :=
  word_lt_five (x i) (Host.reduce_andi_all _ _ hr h0 ix0 e1 i) (Host.reduce_andi_all _ _ hr h0 ix0 e2 i)

/-- The precondition, decoded. -/
theorem decode (x0 x1 : (⟨S16x2048x1024, .f32⟩ : BufTy).Contents (Elt Ideal))
    (x2 : (⟨S1024x1024, .f32⟩ : BufTy).Contents (Elt Ideal)) (x3 : (⟨S1024, .f32⟩ : BufTy).Contents (Elt Ideal))
    (x4 : (⟨S5x4x1024, .f32⟩ : BufTy).Contents (Elt Ideal)) (x5 : (⟨S5x1024x4, .f32⟩ : BufTy).Contents (Elt Ideal))
    (x6 x7 : (⟨S1024, .f32⟩ : BufTy).Contents (Elt Ideal)) (x8 : (⟨S16, .i32⟩ : BufTy).Contents (Elt Ideal))
    (h : Cert.Pre_finite_inputs.fn (F := Ideal) x0 x1 x2 x3 x4 x5 x6 x7 x8 = fun _ => 1#1) :
    (∀ i, Cert.Spec.IsReal (x0 i)) ∧ (∀ i, Cert.Spec.IsReal (x1 i)) ∧ (∀ i, Cert.Spec.IsReal (x2 i))
      ∧ (∀ i, Cert.Spec.IsReal (x3 i)) ∧ (∀ i, Cert.Spec.IsReal (x4 i)) ∧ (∀ i, Cert.Spec.IsReal (x5 i))
      ∧ (∀ i, Cert.Spec.IsReal (x6 i)) ∧ (∀ i, Cert.Spec.IsReal (x7 i)) ∧ (∀ i, (x8 i : BitVec 32).toNat < 5) := by
  have hc := congrFun h ix0
  dsimp only [fn, fn_part1, fn_part2, andi] at hc
  simp only [IntOp.andi_eq_one] at hc
  obtain ⟨⟨⟨⟨⟨⟨⟨⟨⟨e0, e1⟩, e2⟩, e3⟩, e4⟩, e5⟩, e6⟩, e7⟩, e8⟩, e9⟩ := hc
  exact ⟨float_all x0 _ _ _ e0, float_all x1 _ _ _ e1, float_all x2 _ _ _ e2, float_all x3 _ _ _ e3,
    float_all x4 _ _ _ e4, float_all x5 _ _ _ e5, float_all x6 _ _ _ e6, float_all x7 _ _ _ e7,
    int_all x8 _ _ _ e8 e9⟩

end Cert.Finite

end
-- ==== Proof.LibSlabGather.lean ====
import Idealize.ShloMosaic.PureOps.Ideal
import Idealize.ShloMosaic.Lib.ValueIdx
import proofs.«430803_j74809740362143_2_alg».proof.Proof.LibGatherScatter

/-!
# Slab gathers, read at an index

`table[ids]` for a table of `N` slabs, each an `R × C` matrix, and `n` ids lowers to a gather whose start indices
are the ids as an `[n, 1]` array, whose first operand axis is collapsed and start-indexed and whose other two axes are
offset axes taken whole: result slab `t` is the table's slab at the id, read as a signed integer and clamped into
`[0, N - 1]`, so result element `(t, r, c)` is the table's element `(clamp id_t, r, c)`.
-/

noncomputable section

open Idealize.ShloMosaic Idealize.ShloMosaic.ValueIdx

namespace Cert.Lib

/-- The dimension numbers of a slab gather: operand `[N, R, C]`, start indices `[n, 1]`, result `[n, R, C]`. -/
abbrev slabGatherDims (N R C n : Nat)
    (wf : GatherDims.WF ⟨3, ![N, R, C]⟩ ⟨2, ![n, 1]⟩ ⟨3, ![n, R, C]⟩ [1, 2] [0] [] [0] [] 1 ![1, R, C]) :
    GatherDims ⟨3, ![N, R, C]⟩ ⟨2, ![n, 1]⟩ ⟨3, ![n, R, C]⟩ where
  offsetDims := [1, 2]
  collapsedSliceDims := [0]
  operandBatchingDims := []
  startIndicesBatchingDims := []
  startIndexMap := [0]
  indexVectorDim := 1
  sliceSizes := ![1, R, C]
  wf := wf

/-- THE SLAB GATHER READ AT `(t, r, c)`: the operand's slab at the clamped start word, place `(r, c)`. -/
theorem gather_slabs_apply {α : Type} {N R C n : Nat} (hN : 0 < N)
    (wf : GatherDims.WF ⟨3, ![N, R, C]⟩ ⟨2, ![n, 1]⟩ ⟨3, ![n, R, C]⟩ [1, 2] [0] [] [0] [] 1 ![1, R, C])
    (x : (⟨3, ![N, R, C]⟩ : Shape).Idx → α) (idx : IVec ⟨2, ![n, 1]⟩ 32) (t : Fin n) (r : Fin R) (c : Fin C) :
    Host.gather (slabGatherDims N R C n wf) x idx (ix3 t r c) = x (ix3 (clampRow N hN (idx (ix2 t 0))) r c) := by
  unfold Host.gather
  congr 1
  -- axis 0 is collapsed and start-indexed: the clamped start word, no batching and no offset coordinate
  have h0 : (slabGatherDims N R C n wf).start (ix3 t r c) idx (0 : Fin 3)
      + (slabGatherDims N R C n wf).batchCoord (ix3 t r c) (0 : Fin 3)
      + (slabGatherDims N R C n wf).offCoord (ix3 t r c) (0 : Fin 3) = (clampRow N hN (idx (ix2 t 0))).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (slabGatherDims N R C n wf).startIndexMap from List.mem_singleton.mpr rfl)]
    have hsi : (slabGatherDims N R C n wf).siIdx (ix3 t r c) ⟨List.idxOf (0 : Fin 3) (slabGatherDims N R C n wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  -- axes 1 and 2 are kept and not start-indexed: start 0, and the offset coordinate is the result's coordinate on the same axis
  have hkept : ∀ a : Fin 3, a ≠ 0 → a ∈ (slabGatherDims N R C n wf).sKept := by
    intro a ha
    rw [GatherDims.mem_sKept]
    refine ⟨?_, List.not_mem_nil⟩
    show a ∉ ([0] : List (Fin 3))
    simpa using ha
  have hnot : ∀ a : Fin 3, a ≠ 0 → a ∉ (slabGatherDims N R C n wf).startIndexMap := by
    intro a ha
    show a ∉ ([0] : List (Fin 3))
    simpa using ha
  have h1 : (slabGatherDims N R C n wf).start (ix3 t r c) idx (1 : Fin 3)
      + (slabGatherDims N R C n wf).batchCoord (ix3 t r c) (1 : Fin 3)
      + (slabGatherDims N R C n wf).offCoord (ix3 t r c) (1 : Fin 3) = r.val := by
    rw [GatherDims.batchCoord_eq_zero _ _ _ List.not_mem_nil]
    unfold GatherDims.start
    rw [dif_neg (hnot 1 (by decide))]
    simp only [Nat.zero_add, Nat.add_zero]
    unfold GatherDims.offCoord
    rw [dif_pos (hkept 1 (by decide))]
    rfl
  have h2 : (slabGatherDims N R C n wf).start (ix3 t r c) idx (2 : Fin 3)
      + (slabGatherDims N R C n wf).batchCoord (ix3 t r c) (2 : Fin 3)
      + (slabGatherDims N R C n wf).offCoord (ix3 t r c) (2 : Fin 3) = c.val := by
    rw [GatherDims.batchCoord_eq_zero _ _ _ List.not_mem_nil]
    unfold GatherDims.start
    rw [dif_neg (hnot 2 (by decide))]
    simp only [Nat.zero_add, Nat.add_zero]
    unfold GatherDims.offCoord
    rw [dif_pos (hkept 2 (by decide))]
    rfl
  funext a
  refine Fin.ext ?_
  match a with
  | ⟨0, _⟩ => exact h0
  | ⟨1, _⟩ => exact h1
  | ⟨2, _⟩ => exact h2

end Cert.Lib

end
-- ==== Proof.RefValue.lean ====
/-
  The reference program read at one output element.

  Output element `(b, s, e)` of the reference depends on row `(b, s)` of the hidden states and of the residual, on the
  shared weight and bias, on the two low-rank factors of ONE task, and on the normalisation's scale and shift. The task
  is read off batch row `b`'s task word: both gathers take the word, count it from the end when negative, and clamp
  it into the five tables' range. With the task fixed, the program is the row-level computation of the specification:
  a dense layer, a second dense layer plus a quarter of the rank-four correction applied to the activations, the
  residual, and a layer normalisation over the 1024 features. Each step below reads one stretch of the program at an
  index; the last joins them.
-/
import proofs.«430803_j74809740362143_2_alg».proof.Proof.Gen.ReferenceIdeal.Read
import proofs.«430803_j74809740362143_2_alg».proof.Proof.Spec
import proofs.«430803_j74809740362143_2_alg».proof.Proof.Tasks
import proofs.«430803_j74809740362143_2_alg».proof.Proof.LibGatherScatter
import proofs.«430803_j74809740362143_2_alg».proof.Proof.LibSlabGather
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Gen Cert.ReferenceIdeal.Read

/-! ## The index maps of the program at `(b, s, e)`, by coordinates -/

theorem lidx0_eq (b : Fin 16) (s : Fin 2048) (e k : Fin 1024) : lidx_main_v0 (ix3 b s e) k = ix3 b s k :=
  funext fun a => Fin.ext (by match a with | ⟨0, _⟩ => rfl | ⟨1, _⟩ => rfl | ⟨2, _⟩ => rfl)
theorem ridx0_eq (b : Fin 16) (s : Fin 2048) (e k : Fin 1024) : ridx_main_v0 (ix3 b s e) k = ix2 e k :=
  funext fun a => Fin.ext (by match a with | ⟨0, _⟩ => rfl | ⟨1, _⟩ => rfl)
theorem idx2_eq (b : Fin 16) (s : Fin 2048) (e : Fin 1024) : idx_main_v1 (idx_main_v2 (ix3 b s e)) = ix1 e :=
  funext fun a => Fin.ext (by match a with | ⟨0, _⟩ => rfl)
theorem lidx4_eq (b : Fin 16) (s : Fin 2048) (e k : Fin 1024) : lidx_main_v4 (ix3 b s e) k = ix3 b s k :=
  funext fun a => Fin.ext (by match a with | ⟨0, _⟩ => rfl | ⟨1, _⟩ => rfl | ⟨2, _⟩ => rfl)
theorem ridx4_eq (b : Fin 16) (s : Fin 2048) (e k : Fin 1024) : ridx_main_v4 (ix3 b s e) k = ix2 e k :=
  funext fun a => Fin.ext (by match a with | ⟨0, _⟩ => rfl | ⟨1, _⟩ => rfl)
theorem idx6_eq (b : Fin 16) (s : Fin 2048) (e : Fin 1024) : idx_main_v5 (idx_main_v6 (ix3 b s e)) = ix1 e :=
  funext fun a => Fin.ext (by match a with | ⟨0, _⟩ => rfl)
theorem idx13_eq (b : Fin 16) : idx_main_v13 (ix2 b (0 : Fin 1)) = ix1 b :=
  funext fun a => Fin.ext (by match a with | ⟨0, _⟩ => rfl)
theorem idx20_eq (b : Fin 16) : idx_main_v20 (ix2 b (0 : Fin 1)) = ix1 b :=
  funext fun a => Fin.ext (by match a with | ⟨0, _⟩ => rfl)
theorem lidx22_eq (b : Fin 16) (s : Fin 2048) (r : Fin 4) (k : Fin 1024) : lidx_main_v22 (ix3 b s r) k = ix3 b s k :=
  funext fun a => Fin.ext (by match a with | ⟨0, _⟩ => rfl | ⟨1, _⟩ => rfl | ⟨2, _⟩ => rfl)
theorem ridx22_eq (b : Fin 16) (s : Fin 2048) (r : Fin 4) (k : Fin 1024) : ridx_main_v22 (ix3 b s r) k = ix3 b r k :=
  funext fun a => Fin.ext (by match a with | ⟨0, _⟩ => rfl | ⟨1, _⟩ => rfl | ⟨2, _⟩ => rfl)
theorem lidx23_eq (b : Fin 16) (s : Fin 2048) (e : Fin 1024) (r : Fin 4) : lidx_main_v23 (ix3 b s e) r = ix3 b s r :=
  funext fun a => Fin.ext (by match a with | ⟨0, _⟩ => rfl | ⟨1, _⟩ => rfl | ⟨2, _⟩ => rfl)
theorem ridx23_eq (b : Fin 16) (s : Fin 2048) (e : Fin 1024) (r : Fin 4) : ridx_main_v23 (ix3 b s e) r = ix3 b e r :=
  funext fun a => Fin.ext (by match a with | ⟨0, _⟩ => rfl | ⟨1, _⟩ => rfl | ⟨2, _⟩ => rfl)
theorem idx28_eq (b : Fin 16) (s : Fin 2048) (e k : Fin 1024) :
    idx_main_v28 (idx_main_v29 (idx_main_v32 (ix3 b s e))) k = ix3 b s k :=
  funext fun a => Fin.ext (by match a with | ⟨0, _⟩ => rfl | ⟨1, _⟩ => rfl | ⟨2, _⟩ => rfl)
theorem idx35_eq (b : Fin 16) (s : Fin 2048) (e k : Fin 1024) :
    idx_main_v35 (idx_main_v36 (idx_main_v42 (ix3 b s e))) k = ix3 b s k :=
  funext fun a => Fin.ext (by match a with | ⟨0, _⟩ => rfl | ⟨1, _⟩ => rfl | ⟨2, _⟩ => rfl)
theorem idx45_eq (b : Fin 16) (s : Fin 2048) (e : Fin 1024) : idx_main_v44 (idx_main_v45 (ix3 b s e)) = ix1 e :=
  funext fun a => Fin.ext (by match a with | ⟨0, _⟩ => rfl)
theorem idx48_eq (b : Fin 16) (s : Fin 2048) (e : Fin 1024) : idx_main_v47 (idx_main_v48 (ix3 b s e)) = ix1 e :=
  funext fun a => Fin.ext (by match a with | ⟨0, _⟩ => rfl)

section
variable (x0 x1 : (⟨S16x2048x1024, .f32⟩ : BufTy).Contents (Elt Ideal))
  (x2 : (⟨S1024x1024, .f32⟩ : BufTy).Contents (Elt Ideal)) (x3 : (⟨S1024, .f32⟩ : BufTy).Contents (Elt Ideal))
  (x4 : (⟨S5x4x1024, .f32⟩ : BufTy).Contents (Elt Ideal)) (x5 : (⟨S5x1024x4, .f32⟩ : BufTy).Contents (Elt Ideal))
  (x6 x7 : (⟨S1024, .f32⟩ : BufTy).Contents (Elt Ideal)) (x8 : (⟨S16, .i32⟩ : BufTy).Contents (Elt Ideal))

/-! ## The task of a batch row -/

/-- The index word the first gather reads for batch row `b`: the task word, counted from the end when negative. -/
theorem wordA_apply (b : Fin 16) : val_main_v12 (F := Ideal) x8 (ix1 b) = Cert.Lib.normIdx 5#32 (x8 (ix1 b)) := by
  rw [val_main_v12_apply, val_main_v9_apply, val_main_v11_apply, val_main_v8_apply, val_main_v10_apply,
    val_main_c_apply, val_main_c_0_apply]
  rfl

/-- The index word the second gather reads for batch row `b`: the same. -/
theorem wordB_apply (b : Fin 16) : val_main_v19 (F := Ideal) x8 (ix1 b) = Cert.Lib.normIdx 5#32 (x8 (ix1 b)) := by
  rw [val_main_v19_apply, val_main_v16_apply, val_main_v18_apply, val_main_v15_apply, val_main_v17_apply,
    val_main_c_1_apply, val_main_c_2_apply]
  rfl

/-- The first factor's gather at `(b, r, d)`: the first factor of the row's task, at `(r, d)`. -/
theorem factorA_apply (b : Fin 16) (r : Fin 4) (d : Fin 1024) :
    val_main_v14 (F := Ideal) x4 x8 (ix3 b r d) = x4 (ix3 (Cert.Spec.refTask (x8 (ix1 b))) r d) := by
  unfold val_main_v14
  have hd : gather_S5x4x1024_S16x1_S16x4x1024_12_0_n_n_0_1_141024
      = Cert.Lib.slabGatherDims 5 4 1024 16 Facts₀.gather_S5x4x1024_S16x1_S16x4x1024_12_0_n_n_0_1_141024_wf := rfl
  rw [hd, Cert.Lib.gather_slabs_apply (by decide), val_main_v13_apply, idx13_eq, wordA_apply]
  rfl

/-- The second factor's gather at `(b, e, r)`: the second factor of the row's task, at `(e, r)`. -/
theorem factorB_apply (b : Fin 16) (e : Fin 1024) (r : Fin 4) :
    val_main_v21 (F := Ideal) x5 x8 (ix3 b e r) = x5 (ix3 (Cert.Spec.refTask (x8 (ix1 b))) e r) := by
  unfold val_main_v21
  have hd : gather_S5x1024x4_S16x1_S16x1024x4_12_0_n_n_0_1_110244
      = Cert.Lib.slabGatherDims 5 1024 4 16 Facts₀.gather_S5x1024x4_S16x1_S16x1024x4_12_0_n_n_0_1_110244_wf := rfl
  rw [hd, Cert.Lib.gather_slabs_apply (by decide), val_main_v20_apply, idx20_eq, wordB_apply]
  rfl

/-! ## The row before normalisation -/

/-- Row `(b, s)` before normalisation, as the specification states it from the arguments: the hidden row, the shared
    weight, the two factors of the row's task, the bias and the residual row. -/
abbrev pre (b : Fin 16) (s : Fin 2048) : Cert.Spec.Row :=
  Cert.Spec.preR (fun d => x0 (ix3 b s d)) (fun e' d => x2 (ix2 e' d))
    (fun r d => x4 (ix3 (Cert.Spec.refTask (x8 (ix1 b))) r d)) (fun e' r => x5 (ix3 (Cert.Spec.refTask (x8 (ix1 b))) e' r))
    (fun d => x3 (ix1 d)) (fun e' => x1 (ix3 b s e'))

/-- The first dense layer at `(b, s, d)`: the hidden row against row `d` of the weight, plus the bias. -/
theorem hidden_apply (b : Fin 16) (s : Fin 2048) (d : Fin 1024) :
    val_main_v3 (F := Ideal) x0 x2 x3 (ix3 b s d)
      = Cert.Spec.dense (fun k => x0 (ix3 b s k)) (fun k d' => x2 (ix2 d' k)) (fun k => x3 (ix1 k)) d := by
  rw [val_main_v3_apply, val_main_v0_apply, val_main_v2_apply, val_main_v1_apply, idx2_eq]
  simp only [lidx0_eq, ridx0_eq, Ideal.addf_def]
  rfl

/-- The second layer with its correction and the residual at `(b, s, e)`: the first layer's row against row `e` of
    the weight plus the bias, plus a quarter of the row pushed through the task's two factors, plus the residual. -/
theorem pre_apply (b : Fin 16) (s : Fin 2048) (e : Fin 1024) :
    val_main_v27 (F := Ideal) x0 x1 x2 x3 x4 x5 x8 (ix3 b s e) = pre x0 x1 x2 x3 x4 x5 x8 b s e := by
  rw [val_main_v27_apply, val_main_v26_apply, val_main_v7_apply, val_main_v4_apply, val_main_v6_apply, val_main_v5_apply,
    idx6_eq, val_main_v25_apply, val_main_v24_apply, val_main_cst_apply, val_main_v23_apply]
  simp only [lidx4_eq, ridx4_eq, lidx23_eq, ridx23_eq, val_main_v22_apply, lidx22_eq, ridx22_eq, hidden_apply,
    factorA_apply, factorB_apply, Ideal.addf_def, Ideal.mulf_def, Ideal.ofBits_def]
  rfl

/-! ## The normalisation -/

/-- The row's mean, as the program broadcasts it back over the row: the sum from zero, divided by the feature count. -/
theorem mean_apply (b : Fin 16) (s : Fin 2048) (e : Fin 1024) :
    val_main_v32 (F := Ideal) x0 x1 x2 x3 x4 x5 x8 (ix3 b s e) = Cert.Spec.mean (pre x0 x1 x2 x3 x4 x5 x8 b s) := by
  rw [val_main_v32_apply, val_main_v31_apply, val_main_v29_apply, val_main_v28_apply, val_main_v30_apply,
    val_main_cst_4_apply, val_main_cst_3_apply]
  simp only [idx28_eq, pre_apply, Ideal.hostDivf_def, Ideal.ofBits_def, Ideal.ofBits_zero_f32, zero_add]
  rfl

/-- The centred row at `(b, s, e)`. -/
theorem centred_apply (b : Fin 16) (s : Fin 2048) (e : Fin 1024) :
    val_main_v33 (F := Ideal) x0 x1 x2 x3 x4 x5 x8 (ix3 b s e) = pre x0 x1 x2 x3 x4 x5 x8 b s e - Cert.Spec.mean (pre x0 x1 x2 x3 x4 x5 x8 b s) := by
  rw [val_main_v33_apply, pre_apply, mean_apply, Ideal.subf_def]

/-- The reciprocal standard deviation of the row, as the program broadcasts it back over the row: the mean of the
    squared centred row plus the small constant, under the reciprocal square root. -/
theorem rstd_apply (b : Fin 16) (s : Fin 2048) (e : Fin 1024) :
    val_main_v42 (F := Ideal) x0 x1 x2 x3 x4 x5 x8 (ix3 b s e)
      = Ideal.rsqrt (Cert.Spec.mean (fun k => (pre x0 x1 x2 x3 x4 x5 x8 b s k - Cert.Spec.mean (pre x0 x1 x2 x3 x4 x5 x8 b s))
          * (pre x0 x1 x2 x3 x4 x5 x8 b s k - Cert.Spec.mean (pre x0 x1 x2 x3 x4 x5 x8 b s))) + Cert.Spec.eps) := by
  rw [val_main_v42_apply, val_main_v41_apply, val_main_v40_apply, val_main_v38_apply, val_main_v36_apply, val_main_v35_apply,
    val_main_v37_apply, val_main_cst_6_apply, val_main_v39_apply, val_main_cst_7_apply, val_main_cst_5_apply]
  simp only [idx35_eq, val_main_v34_apply, centred_apply, Ideal.hostDivf_def, Ideal.hostUnary_rsqrt_def, Ideal.addf_def,
    Ideal.mulf_def, Ideal.ofBits_def, Ideal.ofBits_zero_f32, zero_add]
  rfl

end

/-- THE REFERENCE AT `(b, s, e)`: the layer normalisation, by the scale and shift rows, of row `(b, s)` before
    normalisation, the correction being that of the task batch row `b`'s word names. -/
theorem ref_apply (x0 x1 : (⟨S16x2048x1024, .f32⟩ : BufTy).Contents (Elt Ideal))
    (x2 : (⟨S1024x1024, .f32⟩ : BufTy).Contents (Elt Ideal)) (x3 : (⟨S1024, .f32⟩ : BufTy).Contents (Elt Ideal))
    (x4 : (⟨S5x4x1024, .f32⟩ : BufTy).Contents (Elt Ideal)) (x5 : (⟨S5x1024x4, .f32⟩ : BufTy).Contents (Elt Ideal))
    (x6 x7 : (⟨S1024, .f32⟩ : BufTy).Contents (Elt Ideal)) (x8 : (⟨S16, .i32⟩ : BufTy).Contents (Elt Ideal))
    (b : Fin 16) (s : Fin 2048) (e : Fin 1024) :
    val_main_v49 (F := Ideal) x0 x1 x2 x3 x4 x5 x6 x7 x8 (ix3 b s e)
      = Cert.Spec.lnorm
          (Cert.Spec.preR (fun d => x0 (ix3 b s d)) (fun e' d => x2 (ix2 e' d))
            (fun r d => x4 (ix3 (Cert.Spec.refTask (x8 (ix1 b))) r d)) (fun e' r => x5 (ix3 (Cert.Spec.refTask (x8 (ix1 b))) e' r))
            (fun d => x3 (ix1 d)) (fun e' => x1 (ix3 b s e')))
          (fun e' => x6 (ix1 e')) (fun e' => x7 (ix1 e')) e := by
  rw [val_main_v49_apply, val_main_v46_apply, val_main_v43_apply, centred_apply, rstd_apply, val_main_v45_apply,
    val_main_v44_apply, idx45_eq, val_main_v48_apply, val_main_v47_apply, idx48_eq]
  rfl

end Cert.ReferenceIdeal.RefValue

end
-- ==== Proof.Join.lean ====
/-
  The one algebraic law of the proof: on finite data, multiplying the hidden row by the merged matrix
  `Wᵀ + ¼ Aᵀ Bᵀ` gives the same row as multiplying by `Wᵀ` and adding a quarter of `(h Aᵀ) Bᵀ`.

  Over the extended reals the product does not distribute over the sum at the infinities, so the law is proved
  where every entry is a real number: real witnesses are chosen for all the data, the coercion `ℝ → EReal` is
  pulled out of every product and every sum, and what is left is an identity between real numbers, which holds by
  distributivity and an exchange of the sum over the 1024 features with the sum over the four ranks.
-/
import proofs.«430803_j74809740362143_2_alg».proof.Proof.Spec
import Mathlib.Data.EReal.Basic
import Mathlib.Algebra.BigOperators.Ring.Finset

noncomputable section

open scoped BigOperators

namespace Cert.Spec

open Idealize.ShloMosaic

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The low-rank scale is a real number (the real `1/4`). -/
theorem quarter_isReal : IsReal quarter := by
  refine ⟨1 / 4, ?_⟩
  simp [quarter, Ideal.ofBits, Ideal.ieee, -EReal.coe_mul]
  norm_num

/-- The law over the reals: `Σ_d h d (W d + q Σ_r A r d · B r) + b = (Σ_d h d · W d + b) + q Σ_r (Σ_d h d · A r d) · B r`. -/
theorem join_real {n m : ℕ} (h w : Fin n → ℝ) (a : Fin m → Fin n → ℝ) (β : Fin m → ℝ) (q c : ℝ) :
    (∑ d, h d * (w d + q * ∑ r, a r d * β r)) + c
      = ((∑ d, h d * w d) + c) + q * ∑ r, (∑ d, h d * a r d) * β r := by
  have hexch : (∑ d, h d * (q * ∑ r, a r d * β r)) = q * ∑ r, (∑ d, h d * a r d) * β r := by
    simp only [Finset.sum_mul, Finset.mul_sum]
    rw [Finset.sum_comm]
    refine Finset.sum_congr rfl fun r _ => Finset.sum_congr rfl fun d _ => ?_
    ring
  simp only [mul_add, Finset.sum_add_distrib, hexch]
  ring

theorem join (x b res : Row) (W : Mat) (A : Fin 4 → Row) (B : Fin 1024 → Fin 4 → EReal)
    (hx : ∀ d, IsReal (x d)) (hb : ∀ d, IsReal (b d)) (hW : ∀ e d, IsReal (W e d))
    (hA : ∀ r d, IsReal (A r d)) (hB : ∀ e r, IsReal (B e r)) :
    preK x (fun d e => W e d) (merged W A B) b res = preR x W A B b res := by
  choose x' hx' using hx
  choose b' hb' using hb
  choose W' hW' using hW
  choose A' hA' using hA
  choose B' hB' using hB
  obtain ⟨q, hq⟩ := quarter_isReal
  funext e
  simp only [preK, preR, dense, merged, hx', hb', hW', hA', hB', hq]
  refine congrArg (fun t => t + res e) ?_
  simp only [← EReal.coe_mul, ← EReal.coe_add, ← coe_finset_sum]
  rw [EReal.coe_eq_coe_iff]
  exact join_real (fun d => ∑ k, x' k * W' d k + b' d) (fun d => W' e d) (fun r d => A' r d)
    (fun r => B' e r) q (b' e)

end Cert.Spec

end
-- ==== Proof.Out.lean ====
/-
  The whole result array, as the merged-weights program computes it, as one function of the nine argument arrays.

  Element `(b, s, e)` of the result depends on row `(b, s)` of the hidden states and of the residual, on the shared
  weight and bias, on the two low-rank factors of the task batch row `b`'s word names once clipped into `[0, 4]`, and on
  the normalisation's scale and shift: it is the layer normalisation of the row obtained by the two dense layers, the
  second through the merged matrix of that task, plus the residual row.
-/
import proofs.«430803_j74809740362143_2_alg».proof.Proof.Spec
import proofs.«430803_j74809740362143_2_alg».proof.Proof.Tasks
import Idealize.ShloMosaic.Lib.ValueIdx

noncomputable section

namespace Cert.Spec

open Idealize.ShloMosaic Idealize.ShloMosaic.ValueIdx

/-- The task the clipped word names, as an index into the five tables. -/
def kerTask (w : BitVec 32) : Fin 5 := ⟨(kerWord w).toNat, kerWord_lt w⟩

/-- A word in `[0, 5)` names the same task whether it is clipped, or counted from the end and clamped. -/
theorem refTask_eq_kerTask (w : BitVec 32) (hw : w.toNat < 5) : refTask w = kerTask w :=
  Fin.ext (by rw [refTask_of_small w hw]; show w.toNat = (kerWord w).toNat; rw [kerWord_of_small w hw])

/-- The result at `(b, s, e)`. -/
def kerAt (x0 x1 : (⟨3, ![16, 2048, 1024]⟩ : Shape).Idx → EReal) (x2 : (⟨2, ![1024, 1024]⟩ : Shape).Idx → EReal)
    (x3 : (⟨1, ![1024]⟩ : Shape).Idx → EReal) (x4 : (⟨3, ![5, 4, 1024]⟩ : Shape).Idx → EReal)
    (x5 : (⟨3, ![5, 1024, 4]⟩ : Shape).Idx → EReal) (x6 x7 : (⟨1, ![1024]⟩ : Shape).Idx → EReal)
    (x8 : (⟨1, ![16]⟩ : Shape).Idx → BitVec 32) (b : Fin 16) (s : Fin 2048) (e : Fin 1024) : EReal :=
  lnorm
    (preK (fun d => x0 (ix3 b s d)) (fun d e' => x2 (ix2 e' d))
      (merged (fun e' d => x2 (ix2 e' d)) (fun r d => x4 (ix3 (kerTask (x8 (ix1 b))) r d))
        (fun e' r => x5 (ix3 (kerTask (x8 (ix1 b))) e' r)))
      (fun d => x3 (ix1 d)) (fun e' => x1 (ix3 b s e')))
    (fun e' => x6 (ix1 e')) (fun e' => x7 (ix1 e')) e

/-- The whole result array. -/
def kerOut (x0 x1 : (⟨3, ![16, 2048, 1024]⟩ : Shape).Idx → EReal) (x2 : (⟨2, ![1024, 1024]⟩ : Shape).Idx → EReal)
    (x3 : (⟨1, ![1024]⟩ : Shape).Idx → EReal) (x4 : (⟨3, ![5, 4, 1024]⟩ : Shape).Idx → EReal)
    (x5 : (⟨3, ![5, 1024, 4]⟩ : Shape).Idx → EReal) (x6 x7 : (⟨1, ![1024]⟩ : Shape).Idx → EReal)
    (x8 : (⟨1, ![16]⟩ : Shape).Idx → BitVec 32) : (⟨3, ![16, 2048, 1024]⟩ : Shape).Idx → EReal :=
  fun i => kerAt x0 x1 x2 x3 x4 x5 x6 x7 x8 (i 0) (i 1) (i 2)

theorem kerOut_ix3 (x0 x1 : (⟨3, ![16, 2048, 1024]⟩ : Shape).Idx → EReal) (x2 : (⟨2, ![1024, 1024]⟩ : Shape).Idx → EReal)
    (x3 : (⟨1, ![1024]⟩ : Shape).Idx → EReal) (x4 : (⟨3, ![5, 4, 1024]⟩ : Shape).Idx → EReal)
    (x5 : (⟨3, ![5, 1024, 4]⟩ : Shape).Idx → EReal) (x6 x7 : (⟨1, ![1024]⟩ : Shape).Idx → EReal)
    (x8 : (⟨1, ![16]⟩ : Shape).Idx → BitVec 32) (b : Fin 16) (s : Fin 2048) (e : Fin 1024) :
    kerOut x0 x1 x2 x3 x4 x5 x6 x7 x8 (ix3 b s e) = kerAt x0 x1 x2 x3 x4 x5 x6 x7 x8 b s e := rfl

end Cert.Spec

end
-- ==== Proof.Bridge.lean ====
/-
  The two programs compute the same array on finite data with task words in range: the reference's result, read at
  every index, is the merged-weights result. The task is the same (a word in [0, 5) is unchanged by either reading),
  and with the task fixed the two second layers agree by distributivity and an exchange of sums.
-/
import proofs.«430803_j74809740362143_2_alg».proof.Proof.RefValue
import proofs.«430803_j74809740362143_2_alg».proof.Proof.Join
import proofs.«430803_j74809740362143_2_alg».proof.Proof.Out

noncomputable section

open scoped BigOperators

namespace Cert.ReferenceIdeal.Bridge

open Idealize.ShloMosaic Idealize.ShloMosaic.ValueIdx Cert.ReferenceIdeal Cert.ReferenceIdeal.Gen Cert.ReferenceIdeal.Read

/-- The reference's result is the merged-weights result, on finite data with task words in `[0, 5)`. -/
theorem ref_eq_kerOut (x0 x1 : (⟨S16x2048x1024, .f32⟩ : BufTy).Contents (Elt Ideal))
    (x2 : (⟨S1024x1024, .f32⟩ : BufTy).Contents (Elt Ideal)) (x3 : (⟨S1024, .f32⟩ : BufTy).Contents (Elt Ideal))
    (x4 : (⟨S5x4x1024, .f32⟩ : BufTy).Contents (Elt Ideal)) (x5 : (⟨S5x1024x4, .f32⟩ : BufTy).Contents (Elt Ideal))
    (x6 x7 : (⟨S1024, .f32⟩ : BufTy).Contents (Elt Ideal)) (x8 : (⟨S16, .i32⟩ : BufTy).Contents (Elt Ideal))
    (h0 : ∀ i, Cert.Spec.IsReal (x0 i)) (h2 : ∀ i, Cert.Spec.IsReal (x2 i)) (h3 : ∀ i, Cert.Spec.IsReal (x3 i))
    (h4 : ∀ i, Cert.Spec.IsReal (x4 i)) (h5 : ∀ i, Cert.Spec.IsReal (x5 i)) (h8 : ∀ i, (x8 i : BitVec 32).toNat < 5) :
    val_main_v49 (F := Ideal) x0 x1 x2 x3 x4 x5 x6 x7 x8 = Cert.Spec.kerOut x0 x1 x2 x3 x4 x5 x6 x7 x8 := by
  funext i
  obtain ⟨b, s, e, rfl⟩ : ∃ (b : Fin 16) (s : Fin 2048) (e : Fin 1024), i = ix3 b s e :=
    ⟨i 0, i 1, i 2, ValueIdx.eq_ix3 i⟩
  -- the reference at (b, s, e), and the merged-weights result at (b, s, e)
  rw [RefValue.ref_apply, Cert.Spec.kerOut_ix3]
  unfold Cert.Spec.kerAt
  -- the task word of batch row b lies in [0, 5): both readings name the same task
  rw [Cert.Spec.refTask_eq_kerTask _ (h8 (ix1 b))]
  -- with the task fixed, the two rows before normalisation agree on finite data
  exact congrArg (fun row => Cert.Spec.lnorm row (fun e' => x6 (ix1 e')) (fun e' => x7 (ix1 e')) e)
    (Cert.Spec.join (fun d => x0 (ix3 b s d)) (fun d => x3 (ix1 d)) (fun e' => x1 (ix3 b s e'))
      (fun e' d => x2 (ix2 e' d)) (fun r d => x4 (ix3 (Cert.Spec.kerTask (x8 (ix1 b))) r d))
      (fun e' r => x5 (ix3 (Cert.Spec.kerTask (x8 (ix1 b))) e' r))
      (fun d => h0 (ix3 b s d)) (fun d => h3 (ix1 d)) (fun e' d => h2 (ix2 e' d))
      (fun r d => h4 (ix3 (Cert.Spec.kerTask (x8 (ix1 b))) r d))
      (fun e' r => h5 (ix3 (Cert.Spec.kerTask (x8 (ix1 b))) e' r))).symm

end Cert.ReferenceIdeal.Bridge

end
-- ==== Proof.HostPrefix.lean ====
/-
  What the host operations before the region leave in the arrays the region's windows stage.

  The second-layer weight reaches the region transposed: entry (d, e) of the staged matrix is W e d. The per-task
  merged matrices are built on the host: the stack of Aᵀ (5 × 1024 × 4) times the stack of Bᵀ (5 × 4 × 1024), batched
  over the task, scaled by a quarter and added to the transposed weight broadcast over the five tasks; entry (t, d, e)
  is W e d + ¼ Σ_r A t r d · B t e r. The bias and the two normalisation vectors are staged as 1 × 1024 rows.
-/
import proofs.«430803_j74809740362143_2_alg».proof.Proof.Gen.KernelIdeal.Frame
import proofs.«430803_j74809740362143_2_alg».proof.Proof.Spec
import proofs.«430803_j74809740362143_2_alg».proof.Proof.Tasks
import Idealize.ShloMosaic.Lib.ValueLayout
import Idealize.ShloMosaic.Lib.ValueIdx
import Idealize.ShloMosaic.Lib.Pipeline.Value
import Idealize.ShloMosaic.Lib.StableHlo.Run
import Idealize.ShloMosaic.PureOps.Ideal.Laws
import Mathlib.Algebra.BigOperators.Group.Finset.Defs
import Mathlib.Algebra.BigOperators.Group.Finset.Basic

noncomputable section

namespace Cert.KernelIdeal.HostPrefix

open Cert.KernelIdeal Cert.KernelIdeal.Gen Idealize.ShloMosaic Idealize.ShloMosaic.TcCoe Idealize.ShloMosaic.ValueIdx
open Idealize.ShloMosaic.StableHlo
open scoped BigOperators

section AtIdeal

variable (m : (ℓ : Loc nD τ sig) → Buf (Elt Ideal) ℓ)

local macro "host_prefix_unfold" : tactic =>
  `(tactic| (dsimp only [Gen.V]
             simp only [Gen.hostOps0, Gen.hostOps0_1, Gen.hostOps0_2, List.flatten_cons, List.flatten_nil, List.append_nil,
               List.cons_append, List.nil_append]))

/-! ## The three staged rows -/

/-- The bias row as staged: the bias vector reshaped to 1 × 1024. -/
theorem V_bias (c : Dev nD) (e : Fin 1024) :
    (V m c main_v12 : S1x1024.Idx → EReal) (ix2 0 e) = m ((c : Thread nD τ).loc main_arg3) (ix1 e) := by
  have h : (V m c main_v12 : S1x1024.Idx → EReal)
      = shapeCast S1x1024 (m ((c : Thread nD τ).loc main_arg3) : S1024.Idx → EReal) shapeCasts_S1024_S1x1024 := by
    host_prefix_unfold
    after_results
    rfl
  rw [h]
  exact shapeCast_a_1a_apply _ _ 0 e

/-- The normalisation's scale row as staged: the scale vector reshaped to 1 × 1024. -/
theorem V_gamma (c : Dev nD) (e : Fin 1024) :
    (V m c main_v13 : S1x1024.Idx → EReal) (ix2 0 e) = m ((c : Thread nD τ).loc main_arg6) (ix1 e) := by
  have h : (V m c main_v13 : S1x1024.Idx → EReal)
      = shapeCast S1x1024 (m ((c : Thread nD τ).loc main_arg6) : S1024.Idx → EReal) shapeCasts_S1024_S1x1024 := by
    host_prefix_unfold
    after_results
    rfl
  rw [h]
  exact shapeCast_a_1a_apply _ _ 0 e

/-- The normalisation's shift row as staged: the shift vector reshaped to 1 × 1024. -/
theorem V_beta (c : Dev nD) (e : Fin 1024) :
    (V m c main_v14 : S1x1024.Idx → EReal) (ix2 0 e) = m ((c : Thread nD τ).loc main_arg7) (ix1 e) := by
  have h : (V m c main_v14 : S1x1024.Idx → EReal)
      = shapeCast S1x1024 (m ((c : Thread nD τ).loc main_arg7) : S1024.Idx → EReal) shapeCasts_S1024_S1x1024 := by
    host_prefix_unfold
    after_results
    rfl
  rw [h]
  exact shapeCast_a_1a_apply _ _ 0 e

/-! ## The transposed weight -/

/-- The weight as staged: transposed (and narrowed, which on the extended reals changes nothing), so entry
    `(d, e)` is `W e d`. -/
theorem V_wt (c : Dev nD) (d e : Fin 1024) :
    (V m c main_v10 : S1024x1024.Idx → EReal) (ix2 d e) = m ((c : Thread nD τ).loc main_arg2) (ix2 e d) := by
  have h : (V m c main_v10 : S1024x1024.Idx → EReal)
      = (truncf (F := Ideal) .bf16 (transpose S1024x1024 [1, 0] (m ((c : Thread nD τ).loc main_arg2) : FVec Ideal S1024x1024 .f32)
          transposes_S1024x1024_S1024x1024_1_0) bitsLt_bf16_f32 : FVec Ideal S1024x1024 .bf16) := by
    host_prefix_unfold
    after_results
  rw [h, truncf_apply]
  exact transpose_ix2_apply _ _ d e

/-! ## The batched product of the two low-rank stacks -/

theorem lhs_lowRank_0 (i : S5x1024x1024.Idx) (q : dot_S5x1024x4_S5x4x1024_S5x1024x1024_2_1_1_2_0_0.contr.Idx) :
    (dot_S5x1024x4_S5x4x1024_S5x1024x1024_2_1_1_2_0_0.lhsIdx i q 0).val = (i 0).val := by
  unfold DotDims.lhsIdx
  rw [dif_pos (show (0 : Fin S5x1024x4.rank) ∈ dot_S5x1024x4_S5x4x1024_S5x1024x1024_2_1_1_2_0_0.lhsBatch by decide)]
  rfl
theorem lhs_lowRank_1 (i : S5x1024x1024.Idx) (q : dot_S5x1024x4_S5x4x1024_S5x1024x1024_2_1_1_2_0_0.contr.Idx) :
    (dot_S5x1024x4_S5x4x1024_S5x1024x1024_2_1_1_2_0_0.lhsIdx i q 1).val = (i 1).val := by
  unfold DotDims.lhsIdx
  rw [dif_neg (show ¬(1 : Fin S5x1024x4.rank) ∈ dot_S5x1024x4_S5x4x1024_S5x1024x1024_2_1_1_2_0_0.lhsBatch by decide), dif_pos (show (1 : Fin S5x1024x4.rank) ∈ dot_S5x1024x4_S5x4x1024_S5x1024x1024_2_1_1_2_0_0.lhsNonContracting by decide)]
  rfl
theorem lhs_lowRank_2 (i : S5x1024x1024.Idx) (q : dot_S5x1024x4_S5x4x1024_S5x1024x1024_2_1_1_2_0_0.contr.Idx) :
    (dot_S5x1024x4_S5x4x1024_S5x1024x1024_2_1_1_2_0_0.lhsIdx i q 2).val = (q ⟨0, by decide⟩).val :=
  dot_S5x1024x4_S5x4x1024_S5x1024x1024_2_1_1_2_0_0.lhsIdx_val_of_single rfl i q
theorem rhs_lowRank_0 (i : S5x1024x1024.Idx) (q : dot_S5x1024x4_S5x4x1024_S5x1024x1024_2_1_1_2_0_0.contr.Idx) :
    (dot_S5x1024x4_S5x4x1024_S5x1024x1024_2_1_1_2_0_0.rhsIdx i q 0).val = (i 0).val := by
  unfold DotDims.rhsIdx
  rw [dif_pos (show (0 : Fin S5x4x1024.rank) ∈ dot_S5x1024x4_S5x4x1024_S5x1024x1024_2_1_1_2_0_0.rhsBatch by decide)]
  rfl
theorem rhs_lowRank_1 (i : S5x1024x1024.Idx) (q : dot_S5x1024x4_S5x4x1024_S5x1024x1024_2_1_1_2_0_0.contr.Idx) :
    (dot_S5x1024x4_S5x4x1024_S5x1024x1024_2_1_1_2_0_0.rhsIdx i q 1).val = (q ⟨0, by decide⟩).val :=
  dot_S5x1024x4_S5x4x1024_S5x1024x1024_2_1_1_2_0_0.rhsIdx_val_of_single rfl i q
theorem rhs_lowRank_2 (i : S5x1024x1024.Idx) (q : dot_S5x1024x4_S5x4x1024_S5x1024x1024_2_1_1_2_0_0.contr.Idx) :
    (dot_S5x1024x4_S5x4x1024_S5x1024x1024_2_1_1_2_0_0.rhsIdx i q 2).val = (i 2).val := by
  unfold DotDims.rhsIdx
  rw [dif_neg (show ¬(2 : Fin S5x4x1024.rank) ∈ dot_S5x1024x4_S5x4x1024_S5x1024x1024_2_1_1_2_0_0.rhsBatch by decide), dif_pos (show (2 : Fin S5x4x1024.rank) ∈ dot_S5x1024x4_S5x4x1024_S5x1024x1024_2_1_1_2_0_0.rhsNonContracting by decide)]
  rfl

/-- The batched product, task by task: entry `(t, d, e)` is `Σ_r L t d r · R t r e`. -/
theorem lowRank_apply (L : FVec Ideal S5x1024x4 .f32) (R : FVec Ideal S5x4x1024 .f32) (t : Fin 5) (d e : Fin 1024) :
    Host.dotGeneral (F := Ideal) dot_S5x1024x4_S5x4x1024_S5x1024x1024_2_1_1_2_0_0 none L R (ix3 t d e) = ∑ r : Fin 4, L (ix3 t d r) * R (ix3 t r e) := by
  simp only [Host.dotGeneral]
  rw [Ideal.dotGeneral_apply, ← Equiv.sum_comp (ValueIdx.contrEquiv1 dot_S5x1024x4_S5x4x1024_S5x1024x1024_2_1_1_2_0_0 4 rfl rfl).symm]
  refine Finset.sum_congr rfl fun k _ => ?_
  have hk := ValueIdx.contrEquiv1_symm_val dot_S5x1024x4_S5x4x1024_S5x1024x1024_2_1_1_2_0_0 4 rfl rfl k
  have el : dot_S5x1024x4_S5x4x1024_S5x1024x1024_2_1_1_2_0_0.lhsIdx (ix3 t d e) ((ValueIdx.contrEquiv1 dot_S5x1024x4_S5x4x1024_S5x1024x1024_2_1_1_2_0_0 4 rfl rfl).symm k) = ix3 t d k := funext fun a => Fin.ext (by
    match a with
    | ⟨0, _⟩ => exact lhs_lowRank_0 _ _
    | ⟨1, _⟩ => exact lhs_lowRank_1 _ _
    | ⟨2, _⟩ => exact (lhs_lowRank_2 _ _).trans hk)
  have er : dot_S5x1024x4_S5x4x1024_S5x1024x1024_2_1_1_2_0_0.rhsIdx (ix3 t d e) ((ValueIdx.contrEquiv1 dot_S5x1024x4_S5x4x1024_S5x1024x1024_2_1_1_2_0_0 4 rfl rfl).symm k) = ix3 t k e := funext fun a => Fin.ext (by
    match a with
    | ⟨0, _⟩ => exact rhs_lowRank_0 _ _
    | ⟨1, _⟩ => exact (rhs_lowRank_1 _ _).trans hk
    | ⟨2, _⟩ => exact rhs_lowRank_2 _ _)
  rw [el, er]

/-! ## The merged matrices -/

/-- The host's merged stack as one term of the three argument arrays. -/
def mergedTerm (W : FVec Ideal S1024x1024 .f32) (A : FVec Ideal S5x4x1024 .f32) (B : FVec Ideal S5x1024x4 .f32) :
    FVec Ideal S5x1024x1024 .bf16 :=
  truncf (F := Ideal) .bf16
    (addf
      (broadcastInDim S5x1024x1024 ![0, 1, 2] bcast_S1x1024x1024_S5x1024x1024_0_1_2
        (broadcastInDim S1x1024x1024 ![1, 2] bcast_S1024x1024_S1x1024x1024_1_2
          (transpose S1024x1024 [1, 0] W transposes_S1024x1024_S1024x1024_1_0)))
      (mulf
        (broadcastInDim S5x1024x1024 ![] bcast_S_S5x1024x1024 (constant (F := Ideal) S_ .f32 0x3E800000#32))
        (Host.dotGeneral (F := Ideal) dot_S5x1024x4_S5x4x1024_S5x1024x1024_2_1_1_2_0_0 none
          (transpose S5x1024x4 [0, 2, 1] A transposes_S5x4x1024_S5x1024x4_0_2_1)
          (transpose S5x4x1024 [0, 2, 1] B transposes_S5x1024x4_S5x4x1024_0_2_1))))
    bitsLt_bf16_f32

/-- The merged stack at an entry: `W e d + ¼ Σ_r A t r d · B t e r`. -/
theorem mergedTerm_apply (W : FVec Ideal S1024x1024 .f32) (A : FVec Ideal S5x4x1024 .f32) (B : FVec Ideal S5x1024x4 .f32)
    (t : Fin 5) (d e : Fin 1024) :
    mergedTerm W A B (ix3 t d e)
      = Cert.Spec.merged (fun e' d' => W (ix2 e' d')) (fun r d' => A (ix3 t r d')) (fun e' r => B (ix3 t e' r)) d e := by
  unfold mergedTerm Cert.Spec.merged Cert.Spec.quarter
  rw [truncf_apply, addf_apply, mulf_apply, lowRank_apply]
  have hW : broadcastInDim S5x1024x1024 ![0, 1, 2] bcast_S1x1024x1024_S5x1024x1024_0_1_2
        (broadcastInDim S1x1024x1024 ![1, 2] bcast_S1024x1024_S1x1024x1024_1_2
          (transpose S1024x1024 [1, 0] W transposes_S1024x1024_S1024x1024_1_0)) (ix3 t d e) = W (ix2 e d) := by
    rw [broadcastInDim_apply _ _ _ (ix3 t d e) (ix3 (0 : Fin 1) d e) (fun a => by
          match a with | ⟨0, _⟩ => rfl | ⟨1, _⟩ => rfl | ⟨2, _⟩ => rfl),
      broadcastInDim_apply _ _ _ (ix3 (0 : Fin 1) d e) (ix2 d e) (fun a => by
          match a with | ⟨0, _⟩ => rfl | ⟨1, _⟩ => rfl)]
    exact transpose_ix2_apply _ _ d e
  have hq : broadcastInDim S5x1024x1024 ![] bcast_S_S5x1024x1024 (constant (F := Ideal) S_ .f32 0x3E800000#32) (ix3 t d e)
      = Ideal.ofBits .f32 0x3E800000#32 := rfl
  rw [hW, hq]
  refine congrArg (fun s => W (ix2 e d) + Ideal.ofBits .f32 0x3E800000#32 * s) (Finset.sum_congr rfl fun r _ => ?_)
  rw [transpose_ix3_021_apply, transpose_ix3_021_apply]

/-- The merged matrices as staged: for task `t`, entry `(d, e)` is the merged second-layer matrix of that task's
    low-rank pair. -/
theorem V_merged (c : Dev nD) (t : Fin 5) (d e : Fin 1024) :
    (V m c main_v11 : S5x1024x1024.Idx → EReal) (ix3 t d e)
      = Cert.Spec.merged (fun e' d' => m ((c : Thread nD τ).loc main_arg2) (ix2 e' d'))
          (fun r d' => m ((c : Thread nD τ).loc main_arg4) (ix3 t r d'))
          (fun e' r => m ((c : Thread nD τ).loc main_arg5) (ix3 t e' r)) d e := by
  have h : (V m c main_v11 : S5x1024x1024.Idx → EReal)
      = mergedTerm (m ((c : Thread nD τ).loc main_arg2)) (m ((c : Thread nD τ).loc main_arg4))
          (m ((c : Thread nD τ).loc main_arg5)) := by
    host_prefix_unfold
    after_results
    rfl
  rw [h]
  exact mergedTerm_apply _ _ _ t d e

end AtIdeal

end Cert.KernelIdeal.HostPrefix

end
-- ==== Proof.Payload.lean ====
/-
  The kernel body's arithmetic, read one stored element at a time.

  One grid step of the kernel holds a block of 512 rows of 1024 hidden features. Each row goes through a dense layer
  (a product with the shared matrix, plus the bias), through a second dense layer whose matrix is the task's merged one,
  gets the residual row added, and is normalised over its 1024 features: the row's mean is taken off, the result is
  scaled by the reciprocal square root of the variance plus a small constant, then by `gamma`, and shifted by `beta`.
  The body does this on whole blocks: products of matrices, sums along the feature axis kept as a column, columns and
  rows broadcast back to the block. Here each of those block operations is read at one index, and the stored element at
  row `s`, feature `e` comes out as the specification's `lnorm` of the specification's `preK` row `s`, at `e`.
-/
import proofs.«430803_j74809740362143_2_alg».proof.Proof.Gen.KernelIdeal.Skeleton
import proofs.«430803_j74809740362143_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## A sum kept as a column, and a column spread over the features -/

section Column
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The sum of a row's features -/

/-- The block's sum along the feature axis reads, at row `s`, the sum of that row's 1024 entries. -/
theorem rowSum_apply (y : FVec Ideal S512x1024 .f32) (h : S512x1024.Reduces [1] S512) (hφ : FKind.Formats .f32)
    (hacc : (0x00000000#32 : BitVec 32) = 0x00000000#32) (s : Fin 512) :
    multiReduction .add [1] S512 y 0x00000000#32 h hφ hacc (ix1 s) = ∑ k : Fin 1024, y (ix2 s k) := by
  refine (Ideal.multiReduction_add_single y 0x00000000#32 h hφ hacc (ix1 s)).trans ?_
  refine Finset.sum_congr rfl fun k _ => congrArg y (funext fun c => Fin.ext ?_)
  match c with
  | ⟨0, _⟩ => rfl
  | ⟨1, _⟩ => rfl

/-! ## A product of a block with a matrix -/

theorem lhs_axis0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_axis1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_axis0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_axis1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The block's product with a 1024 × 1024 matrix, from a zero accumulator, reads at row `s`, column `e` the sum over
    `d` of the block's `(s, d)` entry times the matrix's `(d, e)` entry. -/
theorem matmul_apply (l : FVec Ideal S512x1024 .bf16) (r : FVec Ideal S1024x1024 .bf16) (s : Fin 512) (e : Fin 1024) :
    matmul dot_S512x1024_S1024x1024_S512x1024_1_0_0_1_n_n none l r (constant (F := Ideal) S512x1024 .f32 0x00000000#32) (ix2 s e)
      = ∑ d : Fin 1024, l (ix2 s d) * r (ix2 d e) := by
  refine (Ideal.matmul_constant_zero_apply dot_S512x1024_S1024x1024_S512x1024_1_0_0_1_n_n none l r (ix2 s e)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 s e) ((ValueIdx.contrEquiv1 dot_S512x1024_S1024x1024_S512x1024_1_0_0_1_n_n 1024 rfl rfl).symm k) = ix2 s k := funext fun a => Fin.ext (by
    match a with
    | ⟨0, _⟩ => exact lhs_axis0 _ _
    | ⟨1, _⟩ => exact (lhs_axis1 _ _).trans hk)
  have er : dot_S512x1024_S1024x1024_S512x1024_1_0_0_1_n_n.rhsIdx (ix2 s e) ((ValueIdx.contrEquiv1 dot_S512x1024_S1024x1024_S512x1024_1_0_0_1_n_n 1024 rfl rfl).symm k) = ix2 k e := funext fun a => Fin.ext (by
    match a with
    | ⟨0, _⟩ => exact (rhs_axis0 _ _).trans hk
    | ⟨1, _⟩ => exact rhs_axis1 _ _)
  rw [el, er]

/-! ## The block before normalisation -/

/-- The first dense layer on the block: the product of the hidden block with the shared matrix, plus the bias row. -/
def hid (x0 : Vec Ideal S1x512x1024 .f32) (x2 : Vec Ideal S1024x1024 .bf16) (x4 : Vec Ideal S1x1024 .f32) :
    FVec Ideal S512x1024 .f32 :=
  addf
    (matmul dot_S512x1024_S1024x1024_S512x1024_1_0_0_1_n_n none
      (truncf .bf16 (shapeCast S512x1024 x0 shapeCasts_S1x512x1024_S512x1024 : FVec Ideal S512x1024 .f32) bitsLt_bf16_f32)
      (shapeCast S1024x1024 x2 shapeCasts_S1024x1024_S1024x1024 : FVec Ideal S1024x1024 .bf16)
      (constant (F := Ideal) S512x1024 .f32 0x00000000#32))
    (broadcastTo S512x1024 (shapeCast S1x1024 x4 shapeCasts_S1x1024_S1x1024 : FVec Ideal S1x1024 .f32) broadcasts_S1x1024_S512x1024)

/-- The block before normalisation: the second dense layer, through the task's merged matrix, of the first one's
    result, plus the residual block. -/
def pre (x0 x1 : Vec Ideal S1x512x1024 .f32) (x2 : Vec Ideal S1024x1024 .bf16) (x3 : Vec Ideal S1x1024x1024 .bf16)
    (x4 : Vec Ideal S1x1024 .f32) : FVec Ideal S512x1024 .f32 :=
  addf
    (addf
      (matmul dot_S512x1024_S1024x1024_S512x1024_1_0_0_1_n_n none
        (truncf .bf16 (hid x0 x2 x4) bitsLt_bf16_f32)
        (shapeCast S1024x1024 x3 shapeCasts_S1x1024x1024_S1024x1024 : FVec Ideal S1024x1024 .bf16)
        (constant (F := Ideal) S512x1024 .f32 0x00000000#32))
      (broadcastTo S512x1024 (shapeCast S1x1024 x4 shapeCasts_S1x1024_S1x1024 : FVec Ideal S1x1024 .f32) broadcasts_S1x1024_S512x1024))
    (shapeCast S512x1024 x1 shapeCasts_S1x512x1024_S512x1024 : FVec Ideal S512x1024 .f32)

/-- The column of the rows' means: each row's sum, kept as a column, divided by the feature count. -/
def colMean (y : FVec Ideal S512x1024 .f32) : FVec Ideal S512x1 .f32 :=
  divf
    (shapeCast S512x1 (multiReduction .add [1] S512 y 0x00000000#32 reduces_S512x1024_S512 (.inl rfl) rfl : FVec Ideal S512 .f32)
      shapeCasts_S512_S512x1)
    (broadcast S512x1 (Scalar.ofBits (F := Ideal) .f32 0x44800000#32))

/-- The centred block is the block before normalisation minus its rows' means spread over the features. -/
theorem pay4_eq (x0 x1 : Vec Ideal S1x512x1024 .f32) (x2 : Vec Ideal S1024x1024 .bf16) (x3 : Vec Ideal S1x1024x1024 .bf16)
    (x4 : Vec Ideal S1x1024 .f32) :
    k0_pay4 (F := Ideal) x0 x1 x2 x3 x4
      = subf (pre x0 x1 x2 x3 x4) (broadcastTo S512x1024 (colMean (pre x0 x1 x2 x3 x4)) broadcasts_S512x1_S512x1024) := rfl

/-- The variance column is the column of the means of the centred block's squares. -/
theorem pay5_eq (x0 x1 : Vec Ideal S1x512x1024 .f32) (x2 : Vec Ideal S1024x1024 .bf16) (x3 : Vec Ideal S1x1024x1024 .bf16)
    (x4 : Vec Ideal S1x1024 .f32) :
    k0_pay5 (F := Ideal) x0 x1 x2 x3 x4
      = colMean (mulf (k0_pay4 (F := Ideal) x0 x1 x2 x3 x4) (k0_pay4 (F := Ideal) x0 x1 x2 x3 x4)) := rfl

/-! ## Read at one row -/

/-- The column of means reads, at row `s`, the specification's mean of that row. -/
theorem colMean_apply (y : FVec Ideal S512x1024 .f32) (s : Fin 512) :
    colMean y (ix2 s (0 : Fin 1)) = Cert.Spec.mean (fun k => y (ix2 s k)) := by
  unfold colMean
  rw [divf_apply, broadcast_apply, shapeCast_a_a1_apply, rowSum_apply]
  rfl

/-- Row `s` before normalisation, in the specification's words. -/
abbrev row (x0 x1 : Vec Ideal S1x512x1024 .f32) (x2 : Vec Ideal S1024x1024 .bf16) (x3 : Vec Ideal S1x1024x1024 .bf16)
    (x4 : Vec Ideal S1x1024 .f32) (s : Fin 512) : Cert.Spec.Row :=
  Cert.Spec.preK (fun d => x0 (ix3 (0 : Fin 1) s d)) (fun d e' => x2 (ix2 d e')) (fun d e' => x3 (ix3 (0 : Fin 1) d e'))
    (fun e' => x4 (ix2 (0 : Fin 1) e')) (fun e' => x1 (ix3 (0 : Fin 1) s e'))

/-- The first dense layer's block reads, at row `s`, feature `d`, the specification's dense layer of row `s`. -/
theorem hid_apply (x0 : Vec Ideal S1x512x1024 .f32) (x2 : Vec Ideal S1024x1024 .bf16) (x4 : Vec Ideal S1x1024 .f32)
    (s : Fin 512) (d : Fin 1024) :
    hid x0 x2 x4 (ix2 s d)
      = Cert.Spec.dense (fun k => x0 (ix3 (0 : Fin 1) s k)) (fun k d' => x2 (ix2 k d')) (fun d' => x4 (ix2 (0 : Fin 1) d')) d := by
  unfold hid
  rw [addf_apply, matmul_apply, broadcastTo_1b_ab_apply, shapeCast_self, shapeCast_self]
  unfold Cert.Spec.dense
  refine congrArg (· + _) (Finset.sum_congr rfl fun k _ => ?_)
  rw [truncf_apply, shapeCast_1ab_ab_apply]

/-- The block before normalisation reads, at row `s`, feature `e`, the specification's row `s` at `e`. -/
theorem pre_apply (x0 x1 : Vec Ideal S1x512x1024 .f32) (x2 : Vec Ideal S1024x1024 .bf16) (x3 : Vec Ideal S1x1024x1024 .bf16)
    (x4 : Vec Ideal S1x1024 .f32) (s : Fin 512) (e : Fin 1024) :
    pre x0 x1 x2 x3 x4 (ix2 s e) = row x0 x1 x2 x3 x4 s e := by
  unfold pre
  rw [addf_apply, addf_apply, matmul_apply, broadcastTo_1b_ab_apply, shapeCast_self, shapeCast_1ab_ab_apply]
  show _ = Cert.Spec.dense _ _ _ e + _
  unfold Cert.Spec.dense
  refine congrArg (fun t => (t + _) + _) (Finset.sum_congr rfl fun d _ => ?_)
  rw [truncf_apply, hid_apply, shapeCast_1ab_ab_apply]
  rfl

/-- The centred block reads, at row `s`, feature `e`, the specification's row minus its mean. -/
theorem pay4_apply (x0 x1 : Vec Ideal S1x512x1024 .f32) (x2 : Vec Ideal S1024x1024 .bf16) (x3 : Vec Ideal S1x1024x1024 .bf16)
    (x4 : Vec Ideal S1x1024 .f32) (s : Fin 512) (e : Fin 1024) :
    k0_pay4 (F := Ideal) x0 x1 x2 x3 x4 (ix2 s e)
      = row x0 x1 x2 x3 x4 s e - Cert.Spec.mean (row x0 x1 x2 x3 x4 s) := by
  rw [pay4_eq, subf_apply, broadcastTo_a1_ab_apply, colMean_apply, pre_apply]
  exact congrArg (fun t => row x0 x1 x2 x3 x4 s e - Cert.Spec.mean t) (funext fun k => pre_apply x0 x1 x2 x3 x4 s k)

/-- The variance column reads, at row `s`, the mean of the squares of the specification's centred row. -/
theorem pay5_apply (x0 x1 : Vec Ideal S1x512x1024 .f32) (x2 : Vec Ideal S1024x1024 .bf16) (x3 : Vec Ideal S1x1024x1024 .bf16)
    (x4 : Vec Ideal S1x1024 .f32) (s : Fin 512) :
    k0_pay5 (F := Ideal) x0 x1 x2 x3 x4 (ix2 s (0 : Fin 1))
      = Cert.Spec.mean (fun k => (row x0 x1 x2 x3 x4 s k - Cert.Spec.mean (row x0 x1 x2 x3 x4 s))
          * (row x0 x1 x2 x3 x4 s k - Cert.Spec.mean (row x0 x1 x2 x3 x4 s))) := by
  rw [pay5_eq, colMean_apply]
  refine congrArg Cert.Spec.mean (funext fun k => ?_)
  rw [mulf_apply, pay4_apply]

/-! ## The scaling and the shift -/

/-- The stored block is the centred block times the reciprocal square roots of the variance column plus the small
    constant, spread over the features, times the scale row, plus the shift row, spread over the rows. -/
theorem pay1_eq (g be : FVec Ideal S1x1024 .f32) (c : FVec Ideal S512x1024 .f32) (v : FVec Ideal S512x1 .f32) (ε : Ideal .f32) :
    k0_pay1 (F := Ideal) g be c v ε
      = shapeCast S1x512x1024
          (addf
            (mulf (mulf c (broadcastTo S512x1024 (rsqrt (addf v (broadcast S512x1 ε))) broadcasts_S512x1_S512x1024))
              (broadcastTo S512x1024 g broadcasts_S1x1024_S512x1024))
            (broadcastTo S512x1024 be broadcasts_S1x1024_S512x1024))
          shapeCasts_S512x1024_S1x512x1024 := rfl

/-- The stored block reads, at row `s`, feature `e`: the centred entry, times the reciprocal square root of row `s`'s
    variance entry plus the constant, times the scale at `e`, plus the shift at `e`. -/
theorem pay1_apply (g be : FVec Ideal S1x1024 .f32) (c : FVec Ideal S512x1024 .f32) (v : FVec Ideal S512x1 .f32) (ε : Ideal .f32)
    (s : Fin 512) (e : Fin 1024) :
    k0_pay1 (F := Ideal) g be c v ε (ix3 (0 : Fin 1) s e)
      = ((c (ix2 s e) * Ideal.rsqrt (v (ix2 s (0 : Fin 1)) + ε)) * g (ix2 (0 : Fin 1) e)) + be (ix2 (0 : Fin 1) e) := by
  rw [pay1_eq, shapeCast_ab_1ab_apply, addf_apply, mulf_apply, mulf_apply, broadcastTo_1b_ab_apply, broadcastTo_1b_ab_apply,
    broadcastTo_a1_ab_apply]
  rfl

/-- The scale row and the shift row reach the body unchanged. -/
theorem pay2_eq (x5 : Vec Ideal S1x1024 .f32) : k0_pay2 (F := Ideal) x5 = x5 := shapeCast_self x5 _
theorem pay3_eq (x6 : Vec Ideal S1x1024 .f32) : k0_pay3 (F := Ideal) x6 = x6 := shapeCast_self x6 _

/-! ## The stored element -/

/-- THE BODY'S STORED ELEMENT at row `s`, feature `e`: the layer normalisation, by the scale row `x5` and the shift row
    `x6`, of the row the two dense layers (through `x2`, then through the block `x3` of the merged stack, bias `x4`) make
    of row `s` of the hidden block `x0`, plus row `s` of the residual block `x1`. -/
theorem payload_apply (x0 x1 : Vec Ideal S1x512x1024 .f32) (x2 : Vec Ideal S1024x1024 .bf16) (x3 : Vec Ideal S1x1024x1024 .bf16)
    (x4 x5 x6 : Vec Ideal S1x1024 .f32) (s : Fin 512) (e : Fin 1024) :
    k0_pay1 (F := Ideal) (k0_pay2 x5) (k0_pay3 x6) (k0_pay4 x0 x1 x2 x3 x4) (k0_pay5 x0 x1 x2 x3 x4)
        (Scalar.ofBits .f32 0x3727C5AC#32) (ix3 (0 : Fin 1) s e)
      = Cert.Spec.lnorm
          (Cert.Spec.preK (fun d => x0 (ix3 (0 : Fin 1) s d)) (fun d e' => x2 (ix2 d e')) (fun d e' => x3 (ix3 (0 : Fin 1) d e'))
            (fun e' => x4 (ix2 (0 : Fin 1) e')) (fun e' => x1 (ix3 (0 : Fin 1) s e')))
          (fun e' => x5 (ix2 (0 : Fin 1) e')) (fun e' => x6 (ix2 (0 : Fin 1) e')) e := by
  rw [pay1_apply, pay2_eq, pay3_eq, pay4_apply, pay5_apply]
  rfl

end Cert.KernelIdeal.Payload

end
-- ==== Proof.KernelValue.lean ====
/-
  The merged-weights program's run, read.

  The region runs 64 grid steps; step `t` works on batch row `t / 4` and on rows `512 (t % 4) … 512 (t % 4) + 511` of it. Its
  seven input blocks are read off the arrays the region finds: the hidden and residual rows of that tile, the shared
  matrix transposed, the merged matrix of the task that the batch row's clipped word names, and the bias, scale and
  shift rows. The body leaves in the output's block the layer normalisation of the two dense layers plus the residual,
  row by row, so what step `t` writes back is its block of the specification's whole result array; the 64 blocks tile
  that array, which therefore ends holding the specification's result, and the arguments end unchanged.
-/
import proofs.«430803_j74809740362143_2_alg».proof.Proof.Gen.KernelIdeal.Frame
import proofs.«430803_j74809740362143_2_alg».proof.Proof.Out
import proofs.«430803_j74809740362143_2_alg».proof.Proof.HostPrefix
import proofs.«430803_j74809740362143_2_alg».proof.Proof.Payload
import proofs.«430803_j74809740362143_2_alg».proof.Proof.Ok
import Idealize.ShloMosaic.Lib.Pipeline.Value
import Idealize.ShloMosaic.Lib.StableHlo.Run
import Idealize.ShloMosaic.Lib.Tactic
import Idealize.ShloMosaic.Lib.ValueIdx

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx Idealize.ShloMosaic.Tactic
open Idealize.ShloMosaic.Pipeline (Dat)

section Piece
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- What one grid step leaves in the output's staging buffer: its one covering store's payload, whose loads read the
    whole input buffers. -/
theorem out_A (c : Dev nD) (i : grid0.Coords) (arg3 : Memref sig .tc .vmem S1x512x1024 .f32) (harg3 : arg3.IsWhole) (arg4 : Memref sig .tc .vmem S1x512x1024 .f32) (harg4 : arg4.IsWhole) (arg5 : Memref sig .tc .vmem S1024x1024 .bf16) (harg5 : arg5.IsWhole) (arg6 : Memref sig .tc .vmem S1x1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x512x1024 .f32) (harg10 : arg10.IsWhole)
    (x0 : Vec F S1x512x1024 .f32) (x1 : Vec F S1x512x1024 .f32) (x2 : Vec F S1024x1024 .bf16) (x3 : Vec F S1x1024x1024 .bf16) (x4 : Vec F S1x1024 .f32) (x5 : Vec F S1x1024 .f32) (x6 : Vec F S1x1024 .f32) (xt0 : TbBuf0 (F := F) c tbM0_0) :
    out0_A_7 c i arg3 harg3 arg4 harg4 arg5 harg5 arg6 harg6 arg7 harg7 arg8 harg8 arg9 harg9 arg10 harg10 x0 x1 x2 x3 x4 x5 x6 xt0
      = k0_pay1 (k0_pay2 x5) (k0_pay3 x6) (k0_pay4 x0 x1 x2 x3 x4) (k0_pay5 x0 x1 x2 x3 x4) (Scalar.ofBits .f32 0x3727C5AC#32) := by
  unfold out0_A_7
  rw [View.read_writes_eq_canon _ _ _ (cover0_A_7 c i arg3 harg3 arg4 harg4 arg5 harg5 arg6 harg6 arg7 harg7 arg8 harg8 arg9 harg9 arg10 harg10 x0 x1 x2 x3 x4 x5 x6 xt0)]
  unfold kernelRun0_A
  dsimp only
  sl_unfold_words
  rw [View.canon_unit_zero hz3]
  simp only [View.readAt_eq_ld, harg3.read_unread, harg4.read_unread, harg5.read_unread, harg6.read_unread, harg7.read_unread,
    harg8.read_unread, harg9.read_unread, View.ld_unit_zero (S := S1x512x1024) hz3, View.ld_unit_zero (S := S1024x1024) hz2,
    View.ld_unit_zero (S := S1x1024x1024) hz3, View.ld_unit_zero (S := S1x1024) hz2]

end Piece

/-! ## The grid: 64 points, point `t` being batch row `t / 4`, row tile `t % 4` -/

theorem grid_facts : ∀ t : Fin grid0.N,
    cc0_transform_0 (grid0.coords t) 0 = t.val / 4 ∧ cc0_transform_0 (grid0.coords t) 1 = t.val % 4 ∧ cc0_transform_0 (grid0.coords t) 2 = 0
    ∧ cc0_transform_1 (grid0.coords t) 0 = t.val / 4 ∧ cc0_transform_1 (grid0.coords t) 1 = t.val % 4 ∧ cc0_transform_1 (grid0.coords t) 2 = 0
    ∧ cc0_transform_7 (grid0.coords t) 0 = t.val / 4 ∧ cc0_transform_7 (grid0.coords t) 1 = t.val % 4 ∧ cc0_transform_7 (grid0.coords t) 2 = 0
    ∧ cc0_transform_2 (grid0.coords t) 0 = 0 ∧ cc0_transform_2 (grid0.coords t) 1 = 0
    ∧ cc0_transform_4 (grid0.coords t) 0 = 0 ∧ cc0_transform_4 (grid0.coords t) 1 = 0
    ∧ cc0_transform_5 (grid0.coords t) 0 = 0 ∧ cc0_transform_5 (grid0.coords t) 1 = 0
    ∧ cc0_transform_6 (grid0.coords t) 0 = 0 ∧ cc0_transform_6 (grid0.coords t) 1 = 0
    ∧ ((grid0.coords t) 0).val = t.val / 4 := by
  decide +kernel

section Value
variable (m : (ℓ : Loc nD τ sig) → Buf (Elt Ideal) ℓ) (hO : Ok m)

theorem t_lt (t : Fin (cfgM m hO).N) : t.val < 64 := lt_of_lt_of_eq t.isLt N_0

/-- The batch row a grid point works on, and the array row of row `s` of its tile. -/
def batchOf (t : Fin (cfgM m hO).N) : Fin 16 := ⟨t.val / 4, by have := t_lt m hO t; omega⟩
def rowOf (t : Fin (cfgM m hO).N) (s : Fin 512) : Fin 2048 := ⟨512 * (t.val % 4) + s.val, by have := s.isLt; omega⟩

/-! ## Each input window's block at a point, read off its array -/

theorem hs_read (c : Dev nD) (t : Fin (cfgM m hO).N) (s : Fin 512) (d : Fin 1024) :
    (iblk m hO c 0 t : S1x512x1024.Idx → EReal) (ix3 (0 : Fin 1) s d)
      = m ((c : Thread nD τ).loc main_arg0) (ix3 (batchOf m hO t) (rowOf m hO t s) d) := by
  show V m c main_arg0 ((((cfgM m hO).win 0).blk t).view.emb (ix3 (0 : Fin 1) s d)) = _
  rw [V_main_arg0]
  refine congrArg _ (funext fun a => Fin.ext ?_)
  obtain ⟨a00, a01, a02, a10, a11, a12, a70, a71, a72, a20, a21, a40, a41, a50, a51, a60, a61, ac⟩ := grid_facts t
  match a with
  | ⟨0, _⟩ => show cc0_transform_0 (grid0.coords t) 0 * 1 + 1 * 0 = t.val / 4; omega
  | ⟨1, _⟩ => show cc0_transform_0 (grid0.coords t) 1 * 512 + 1 * s.val = 512 * (t.val % 4) + s.val; omega
  | ⟨2, _⟩ => show cc0_transform_0 (grid0.coords t) 2 * 1024 + 1 * d.val = d.val; omega

theorem res_read (c : Dev nD) (t : Fin (cfgM m hO).N) (s : Fin 512) (d : Fin 1024) :
    (iblk m hO c 1 t : S1x512x1024.Idx → EReal) (ix3 (0 : Fin 1) s d)
      = m ((c : Thread nD τ).loc main_arg1) (ix3 (batchOf m hO t) (rowOf m hO t s) d) := by
  show V m c main_arg1 ((((cfgM m hO).win 1).blk t).view.emb (ix3 (0 : Fin 1) s d)) = _
  rw [V_main_arg1]
  refine congrArg _ (funext fun a => Fin.ext ?_)
  obtain ⟨a00, a01, a02, a10, a11, a12, a70, a71, a72, a20, a21, a40, a41, a50, a51, a60, a61, ac⟩ := grid_facts t
  match a with
  | ⟨0, _⟩ => show cc0_transform_1 (grid0.coords t) 0 * 1 + 1 * 0 = t.val / 4; omega
  | ⟨1, _⟩ => show cc0_transform_1 (grid0.coords t) 1 * 512 + 1 * s.val = 512 * (t.val % 4) + s.val; omega
  | ⟨2, _⟩ => show cc0_transform_1 (grid0.coords t) 2 * 1024 + 1 * d.val = d.val; omega

theorem wt_read (c : Dev nD) (t : Fin (cfgM m hO).N) (d e : Fin 1024) :
    (iblk m hO c 2 t : S1024x1024.Idx → EReal) (ix2 d e) = (V m c main_v10 : S1024x1024.Idx → EReal) (ix2 d e) := by
  show V m c main_v10 ((((cfgM m hO).win 2).blk t).view.emb (ix2 d e)) = _
  refine congrArg _ (funext fun a => Fin.ext ?_)
  obtain ⟨a00, a01, a02, a10, a11, a12, a70, a71, a72, a20, a21, a40, a41, a50, a51, a60, a61, ac⟩ := grid_facts t
  match a with
  | ⟨0, _⟩ => show cc0_transform_2 (grid0.coords t) 0 * 1024 + 1 * d.val = d.val; omega
  | ⟨1, _⟩ => show cc0_transform_2 (grid0.coords t) 1 * 1024 + 1 * e.val = e.val; omega

theorem bias_read (c : Dev nD) (t : Fin (cfgM m hO).N) (e : Fin 1024) :
    (iblk m hO c 4 t : S1x1024.Idx → EReal) (ix2 (0 : Fin 1) e) = (V m c main_v12 : S1x1024.Idx → EReal) (ix2 (0 : Fin 1) e) := by
  show V m c main_v12 ((((cfgM m hO).win 4).blk t).view.emb (ix2 (0 : Fin 1) e)) = _
  refine congrArg _ (funext fun a => Fin.ext ?_)
  obtain ⟨a00, a01, a02, a10, a11, a12, a70, a71, a72, a20, a21, a40, a41, a50, a51, a60, a61, ac⟩ := grid_facts t
  match a with
  | ⟨0, _⟩ => show cc0_transform_4 (grid0.coords t) 0 * 1 + 1 * 0 = 0; omega
  | ⟨1, _⟩ => show cc0_transform_4 (grid0.coords t) 1 * 1024 + 1 * e.val = e.val; omega

theorem gamma_read (c : Dev nD) (t : Fin (cfgM m hO).N) (e : Fin 1024) :
    (iblk m hO c 5 t : S1x1024.Idx → EReal) (ix2 (0 : Fin 1) e) = (V m c main_v13 : S1x1024.Idx → EReal) (ix2 (0 : Fin 1) e) := by
  show V m c main_v13 ((((cfgM m hO).win 5).blk t).view.emb (ix2 (0 : Fin 1) e)) = _
  refine congrArg _ (funext fun a => Fin.ext ?_)
  obtain ⟨a00, a01, a02, a10, a11, a12, a70, a71, a72, a20, a21, a40, a41, a50, a51, a60, a61, ac⟩ := grid_facts t
  match a with
  | ⟨0, _⟩ => show cc0_transform_5 (grid0.coords t) 0 * 1 + 1 * 0 = 0; omega
  | ⟨1, _⟩ => show cc0_transform_5 (grid0.coords t) 1 * 1024 + 1 * e.val = e.val; omega

theorem beta_read (c : Dev nD) (t : Fin (cfgM m hO).N) (e : Fin 1024) :
    (iblk m hO c 6 t : S1x1024.Idx → EReal) (ix2 (0 : Fin 1) e) = (V m c main_v14 : S1x1024.Idx → EReal) (ix2 (0 : Fin 1) e) := by
  show V m c main_v14 ((((cfgM m hO).win 6).blk t).view.emb (ix2 (0 : Fin 1) e)) = _
  refine congrArg _ (funext fun a => Fin.ext ?_)
  obtain ⟨a00, a01, a02, a10, a11, a12, a70, a71, a72, a20, a21, a40, a41, a50, a51, a60, a61, ac⟩ := grid_facts t
  match a with
  | ⟨0, _⟩ => show cc0_transform_6 (grid0.coords t) 0 * 1 + 1 * 0 = 0; omega
  | ⟨1, _⟩ => show cc0_transform_6 (grid0.coords t) 1 * 1024 + 1 * e.val = e.val; omega

/-- The merged-weight window's block at a point is the merged matrix of the task the point's batch row names. -/
theorem merged_read (c : Dev nD) (t : Fin (cfgM m hO).N) (d e : Fin 1024) :
    (iblk m hO c 3 t : S1x1024x1024.Idx → EReal) (ix3 (0 : Fin 1) d e)
      = (V m c main_v11 : S5x1024x1024.Idx → EReal)
          (ix3 (Cert.Spec.kerTask (m (((0 : Dev nD) : Thread nD τ).loc main_arg8) (ix1 (batchOf m hO t)))) d e) := by
  show V m c main_v11 ((((cfgM m hO).win 3).blk t).view.emb (ix3 (0 : Fin 1) d e)) = _
  refine congrArg _ (funext fun a => Fin.ext ?_)
  obtain ⟨a00, a01, a02, a10, a11, a12, a70, a71, a72, a20, a21, a40, a41, a50, a51, a60, a61, ac⟩ := grid_facts t
  have h3 := Cert.KernelIdeal.OkProof.transform3_eq m (grid0.coords t)
  match a with
  | ⟨0, _⟩ =>
    show cc0_transform_3 k0_off1_inb numel1_S1 (tbl m) (grid0.coords t) 0 * 1 + 1 * 0 = (Cert.Spec.kerWord (m (((0 : Dev nD) : Thread nD τ).loc main_arg8) (ix1 (batchOf m hO t)))).toNat
    rw [h3]
    show (Cert.Spec.kerWord (m (((0 : Dev nD) : Thread nD τ).loc main_arg8) (ix1 (grid0.coords t 0)))).toNat * 1 + 1 * 0
      = (Cert.Spec.kerWord (m (((0 : Dev nD) : Thread nD τ).loc main_arg8) (ix1 (batchOf m hO t)))).toNat
    have hw : ((m (((0 : Dev nD) : Thread nD τ).loc main_arg8) (ix1 (grid0.coords t 0))) : BitVec 32) = (m (((0 : Dev nD) : Thread nD τ).loc main_arg8) (ix1 (batchOf m hO t))) :=
      congrArg (m (((0 : Dev nD) : Thread nD τ).loc main_arg8)) (funext fun a' => Fin.ext (by match a' with | ⟨0, _⟩ => exact ac))
    rw [Nat.mul_one, Nat.mul_zero, Nat.add_zero]
    exact congrArg (fun w => (Cert.Spec.kerWord w).toNat) hw
  | ⟨1, _⟩ => show cc0_transform_3 k0_off1_inb numel1_S1 (tbl m) (grid0.coords t) 1 * 1024 + 1 * d.val = d.val; rw [h3]; show 0 * 1024 + 1 * d.val = d.val; omega
  | ⟨2, _⟩ => show cc0_transform_3 k0_off1_inb numel1_S1 (tbl m) (grid0.coords t) 2 * 1024 + 1 * e.val = e.val; rw [h3]; show 0 * 1024 + 1 * e.val = e.val; omega

/-! ## What a point writes back -/

/-- The staging buffer of the output after the body at point `t`: the body's stored block, of the seven input blocks. -/
theorem outs_eq (c : Dev nD) (t : Fin (cfgM m hO).N) :
    outsAt0 m hO c t
      = k0_pay1 (F := Ideal) (k0_pay2 (iblk m hO c 5 t)) (k0_pay3 (iblk m hO c 6 t)) (k0_pay4 (iblk m hO c 0 t) (iblk m hO c 1 t) (iblk m hO c 2 t) (iblk m hO c 3 t) (iblk m hO c 4 t))
          (k0_pay5 (iblk m hO c 0 t) (iblk m hO c 1 t) (iblk m hO c 2 t) (iblk m hO c 3 t) (iblk m hO c 4 t)) (Scalar.ofBits .f32 0x3727C5AC#32) := by
  unfold outsAt0
  exact out_A (F := Ideal) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (iblk m hO c 0 t) (iblk m hO c 1 t) (iblk m hO c 2 t) (iblk m hO c 3 t) (iblk m hO c 4 t) (iblk m hO c 5 t) (iblk m hO c 6 t) (tbl m 0)

/-- The whole result array of core `c`, as the specification gives it from the nine argument arrays. -/
abbrev result (c : Dev nD) : S16x2048x1024.Idx → EReal := Cert.Spec.kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- Element `(s, e)` of the block point `t` writes back is the specification's result at batch row `t / 4`, row
    `512 (t % 4) + s`, feature `e`. -/
theorem flushed_at (c : Dev nD) (t : Fin (cfgM m hO).N) (s : Fin 512) (e : Fin 1024) :
    ((dats m hO 0 c).flushed 7 t : S1x512x1024.Idx → EReal) (ix3 (0 : Fin 1) s e)
      = Cert.Spec.kerAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (batchOf m hO t) (rowOf m hO t s) e := by
  obtain rfl : c = 0 := Subsingleton.elim _ _
  show (((cfgM m hO).win 7).cut (grid0.coords t) ((dats m hO 0 0).after 7 t)) (ix3 (0 : Fin 1) s e) = _
  rw [after0_7, outs_eq]
  refine (Cert.KernelIdeal.Payload.payload_apply (iblk m hO 0 0 t) (iblk m hO 0 1 t) (iblk m hO 0 2 t) (iblk m hO 0 3 t) (iblk m hO 0 4 t) (iblk m hO 0 5 t) (iblk m hO 0 6 t) s e).trans ?_
  have e0 : (fun d => (iblk m hO 0 0 t : S1x512x1024.Idx → EReal) (ix3 (0 : Fin 1) s d))
      = fun d => m (((0 : Dev nD) : Thread nD τ).loc main_arg0) (ix3 (batchOf m hO t) (rowOf m hO t s) d) :=
    funext fun d => hs_read m hO 0 t s d
  have e1 : (fun d => (iblk m hO 0 1 t : S1x512x1024.Idx → EReal) (ix3 (0 : Fin 1) s d))
      = fun d => m (((0 : Dev nD) : Thread nD τ).loc main_arg1) (ix3 (batchOf m hO t) (rowOf m hO t s) d) :=
    funext fun d => res_read m hO 0 t s d
  have e2 : (fun d e' => (iblk m hO 0 2 t : S1024x1024.Idx → EReal) (ix2 d e'))
      = fun d e' => m (((0 : Dev nD) : Thread nD τ).loc main_arg2) (ix2 e' d) :=
    funext fun d => funext fun e' => (wt_read m hO 0 t d e').trans (Cert.KernelIdeal.HostPrefix.V_wt m 0 d e')
  have e3 : (fun d e' => (iblk m hO 0 3 t : S1x1024x1024.Idx → EReal) (ix3 (0 : Fin 1) d e'))
      = Cert.Spec.merged (fun e' d' => m (((0 : Dev nD) : Thread nD τ).loc main_arg2) (ix2 e' d'))
          (fun r d' => m (((0 : Dev nD) : Thread nD τ).loc main_arg4) (ix3 (Cert.Spec.kerTask (m (((0 : Dev nD) : Thread nD τ).loc main_arg8) (ix1 (batchOf m hO t)))) r d'))
          (fun e' r => m (((0 : Dev nD) : Thread nD τ).loc main_arg5) (ix3 (Cert.Spec.kerTask (m (((0 : Dev nD) : Thread nD τ).loc main_arg8) (ix1 (batchOf m hO t)))) e' r)) :=
    funext fun d => funext fun e' => (merged_read m hO 0 t d e').trans (Cert.KernelIdeal.HostPrefix.V_merged m 0 _ d e')
  have e4 : (fun e' => (iblk m hO 0 4 t : S1x1024.Idx → EReal) (ix2 (0 : Fin 1) e'))
      = fun e' => m (((0 : Dev nD) : Thread nD τ).loc main_arg3) (ix1 e') :=
    funext fun e' => (bias_read m hO 0 t e').trans (Cert.KernelIdeal.HostPrefix.V_bias m 0 e')
  have e5 : (fun e' => (iblk m hO 0 5 t : S1x1024.Idx → EReal) (ix2 (0 : Fin 1) e'))
      = fun e' => m (((0 : Dev nD) : Thread nD τ).loc main_arg6) (ix1 e') :=
    funext fun e' => (gamma_read m hO 0 t e').trans (Cert.KernelIdeal.HostPrefix.V_gamma m 0 e')
  have e6 : (fun e' => (iblk m hO 0 6 t : S1x1024.Idx → EReal) (ix2 (0 : Fin 1) e'))
      = fun e' => m (((0 : Dev nD) : Thread nD τ).loc main_arg7) (ix1 e') :=
    funext fun e' => (beta_read m hO 0 t e').trans (Cert.KernelIdeal.HostPrefix.V_beta m 0 e')
  rw [e0, e1, e2, e3, e4, e5, e6]
  rfl

/-- The index of the array that element `(s, e)` of point `t`'s block lands on. -/
theorem out_emb (t : Fin (cfgM m hO).N) (s : Fin 512) (e : Fin 1024) :
    (((cfgM m hO).win 7).blk t).view.emb (ix3 (0 : Fin 1) s e) = ix3 (batchOf m hO t) (rowOf m hO t s) e := by
  refine funext fun a => Fin.ext ?_
  obtain ⟨a00, a01, a02, a10, a11, a12, a70, a71, a72, a20, a21, a40, a41, a50, a51, a60, a61, ac⟩ := grid_facts t
  match a with
  | ⟨0, _⟩ => show cc0_transform_7 (grid0.coords t) 0 * 1 + 1 * 0 = t.val / 4; omega
  | ⟨1, _⟩ => show cc0_transform_7 (grid0.coords t) 1 * 512 + 1 * s.val = 512 * (t.val % 4) + s.val; omega
  | ⟨2, _⟩ => show cc0_transform_7 (grid0.coords t) 2 * 1024 + 1 * e.val = e.val; omega

/-- What point `t` writes back, at an index of its block: the specification's result array at the index it lands on. -/
theorem flushed_apply (c : Dev nD) (t : Fin (cfgM m hO).N) (j : S1x512x1024.Idx) :
    ((dats m hO 0 c).flushed 7 t : S1x512x1024.Idx → EReal) j = result m c ((((cfgM m hO).win 7).blk t).view.emb j) := by
  obtain ⟨u, s, e, rfl⟩ : ∃ (u : Fin 1) (s : Fin 512) (e : Fin 1024), j = ix3 u s e := ⟨j 0, j 1, j 2, eq_ix3 j⟩
  obtain rfl : u = 0 := Subsingleton.elim _ _
  exact (flushed_at m hO c t s e).trans (congrArg (result m c) (out_emb m hO t s e)).symm

/-- WHAT POINT `t` WRITES BACK is its block of the specification's result array. -/
theorem flushed_eq (c : Dev nD) (t : Fin (cfgM m hO).N) :
    (dats m hO 0 c).flushed 7 t = (((cfgM m hO).win 7).blk t).view.read (Elt Ideal) (result m c) :=
  funext fun j => flushed_apply m hO c t j

/-! ## The blocks tile the array -/

/-- An index of the array is in point `t`'s block iff each coordinate is in the block's range on its axis. -/
theorem mem_blk (t : Fin (cfgM m hO).N) (i : S16x2048x1024.Idx) :
    i ∈ (((cfgM m hO).win 7).blk t).view.set ↔ ∀ a : Fin 3, cc0_transform_7 (grid0.coords t) a * S1x512x1024.size a ≤ (i a).val
      ∧ (i a).val < cc0_transform_7 (grid0.coords t) a * S1x512x1024.size a + S1x512x1024.size a := by
  have key : i ∈ (((cfgM m hO).win 7).blk t).view.set ↔ i ∈ (((cfgM m hO).win 7).rect t).set :=
    Iff.of_eq (congrArg (fun S => i ∈ S) (View.set_slice_whole main_v15 (((cfgM m hO).win 7).rect t)))
  exact key.trans Rect.mem_set_unit

/-- Every index of the array is in the block of the point of its batch row and row tile: point `4 b + r / 512`. -/
theorem cover (i : S16x2048x1024.Idx) :
    ∃ t : Fin (cfgM m hO).N, ((cfgM m hO).win 7).flush t = true ∧ i ∈ (((cfgM m hO).win 7).blk t).view.set := by
  have h0 : (i 0).val < 16 := (i 0).isLt
  have h1 : (i 1).val < 2048 := (i 1).isLt
  have h2 : (i 2).val < 1024 := (i 2).isLt
  obtain ⟨t, htv⟩ : ∃ t : Fin (cfgM m hO).N, t.val = 4 * (i 0).val + (i 1).val / 512 :=
    ⟨⟨4 * (i 0).val + (i 1).val / 512, lt_of_lt_of_eq (by omega : 4 * (i 0).val + (i 1).val / 512 < 64) N_0.symm⟩, rfl⟩
  refine ⟨t, flush0_7 (adm m hO) t, ?_⟩
  rw [mem_blk]
  obtain ⟨a00, a01, a02, a10, a11, a12, a70, a71, a72, a20, a21, a40, a41, a50, a51, a60, a61, ac⟩ := grid_facts t
  intro a
  match a with
  | ⟨0, _⟩ =>
    show cc0_transform_7 (grid0.coords t) 0 * 1 ≤ (i 0).val ∧ (i 0).val < cc0_transform_7 (grid0.coords t) 0 * 1 + 1
    omega
  | ⟨1, _⟩ =>
    show cc0_transform_7 (grid0.coords t) 1 * 512 ≤ (i 1).val ∧ (i 1).val < cc0_transform_7 (grid0.coords t) 1 * 512 + 512
    omega
  | ⟨2, _⟩ =>
    show cc0_transform_7 (grid0.coords t) 2 * 1024 ≤ (i 2).val ∧ (i 2).val < cc0_transform_7 (grid0.coords t) 2 * 1024 + 1024
    omega

/-- THE RESULT ARRAY after the run is the specification's. -/
theorem final (c : Dev nD) : (dats m hO 0 c).arrAt 7 (cfgM m hO).N = result m c :=
  (dats m hO 0 c).arrAt_eq_of_cover 7 (result m c) (fun t _ => flushed_eq m hO c t) (cover m hO)

end Value

/-! ## The run, read -/

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v15) = Cert.Spec.kerOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) := by
  have hO : Ok m := Cert.KernelIdeal.OkProof.ok m
  exact (θ_run defs _ _).mono (fun r h c => ⟨((h c).1 7).trans (final m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩)
    (run_main m ρ hO)

end Cert.KernelIdeal.KernelValue

end
-- ==== Proof.lean ====
/-
  The five claims of the certificate, assembled.

  Both kernel programs run and leave their arguments unchanged for every input: the task table the region prefetches is
  the task words clipped into [0, 4], so every block the pipeline fetches lies inside its array. The reference runs as
  its list of host operations, its arguments unchanged. On finite data with task words in [0, 5) the kernel's result and
  the reference's are one function of the nine argument arrays: the layer normalisation of two dense layers plus the
  residual, the rank-four correction of the row's task merged into the second layer's weights by the one and applied to
  the activations by the other, which agree by distributivity and an exchange of sums.
-/
import proofs.«430803_j74809740362143_2_alg».proof.Defs
import proofs.«430803_j74809740362143_2_alg».proof.Proof.Gen.Kernel
import proofs.«430803_j74809740362143_2_alg».proof.Proof.Gen.Kernel.Skeleton
import proofs.«430803_j74809740362143_2_alg».proof.Proof.Gen.Kernel.Launch
import proofs.«430803_j74809740362143_2_alg».proof.Proof.Gen.Kernel.Points
import proofs.«430803_j74809740362143_2_alg».proof.Proof.Gen.Kernel.Frame
import proofs.«430803_j74809740362143_2_alg».proof.Proof.Gen.KernelIdeal
import proofs.«430803_j74809740362143_2_alg».proof.Proof.Gen.KernelIdeal.Skeleton
import proofs.«430803_j74809740362143_2_alg».proof.Proof.Gen.KernelIdeal.Launch
import proofs.«430803_j74809740362143_2_alg».proof.Proof.Gen.KernelIdeal.Points
import proofs.«430803_j74809740362143_2_alg».proof.Proof.Gen.KernelIdeal.Frame
import proofs.«430803_j74809740362143_2_alg».proof.Proof.Gen.ReferenceIdeal
import proofs.«430803_j74809740362143_2_alg».proof.Proof.Gen.Pre_finite_inputs
import proofs.«430803_j74809740362143_2_alg».proof.Proof.Gen.ReferenceIdeal.Run
import proofs.«430803_j74809740362143_2_alg».proof.Proof.Gen.ReferenceIdeal.Read
import proofs.«430803_j74809740362143_2_alg».proof.Proof.Ok
import proofs.«430803_j74809740362143_2_alg».proof.Proof.OkBits
import proofs.«430803_j74809740362143_2_alg».proof.Proof.Finite
import proofs.«430803_j74809740362143_2_alg».proof.Proof.Bridge
import proofs.«430803_j74809740362143_2_alg».proof.Proof.KernelValue
import proofs.«430803_j74809740362143_2_alg».proof.Proof.Out
import Idealize.ShloMosaic.Adequacy
import Idealize.ShloMosaic.Init

noncomputable section

namespace Cert.Proof

open Idealize.ShloMosaic Idealize.SL.Sem

/-- The kernel as printed runs, its arguments unchanged: the prefetched table is in range for every input. -/
theorem frame_k : Cert.frame_Kernel := fun m ρ _ => Cert.Kernel.Gen.frame m ρ (Cert.Kernel.OkProof.ok m)

/-- The idealized kernel runs, its arguments unchanged: the same, at the extended reals. -/
theorem frame_ki : Cert.frame_KernelIdeal := fun m ρ _ =>
  Cert.KernelIdeal.Gen.frame m ρ (Cert.KernelIdeal.OkProof.ok m)

/-- The reference runs, its arguments unchanged: the run of its host operations, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite data with task words in [0, 5), from memories agreeing on the arguments, the kernel's result array and
    the reference's are the merged-weights function of the kernel's arguments: the kernel's by its own run, the
    reference's by its run read at every index and the agreement of the two second layers on finite data. -/
theorem algebraic : Cert.algebraic_KernelIdeal_ReferenceIdeal := by
  intro m ρ m' ρ' hpre hagree
  refine ⟨fun c => Cert.Spec.kerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, _, h2, h3, h4, h5, _, _, h8⟩ := Cert.Finite.decode _ _ _ _ _ _ _ _ _ (hpre c)
  obtain ⟨e0, e1, e2, e3, e4, e5, e6, e7, e8⟩ := hagree c
  rw [Cert.ReferenceIdeal.Read.val_main_v49_eq, e0, e1, e2, e3, e4, e5, e6, e7, e8]
  exact Cert.ReferenceIdeal.Bridge.ref_eq_kerOut _ _ _ _ _ _ _ _ _ h0 h2 h3 h4 h5 h8

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
